-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x4096 : Shape := ⟨2, ![8192, 4096]⟩
abbrev S512x512 : Shape := ⟨2, ![512, 512]⟩
abbrev S512x1 : Shape := ⟨2, ![512, 1]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S8192x512 .f32) (main_arg1 : FVec F S8192x4096 .f32) (main_arg2 : FVec F S512x512 .f32) (main_arg3 : FVec F S512x1 .f32) (main_arg4 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg4 main_v13 main_v16
-- ==== Kernel.lean ====
abbrev S8192x512 : Shape := ⟨2, ![8192, 512]⟩
abbrev S8192x4096 : Shape := ⟨2, ![8192, 4096]⟩
abbrev S512x512 : Shape := ⟨2, ![512, 512]⟩
abbrev S512x1 : Shape := ⟨2, ![512, 1]⟩
abbrev S512 : Shape := ⟨1, ![512]⟩
abbrev S4096x512 : Shape := ⟨2, ![4096, 512]⟩
abbrev S1x4096 : Shape := ⟨2, ![1, 4096]⟩
abbrev S2048x1024 : Shape := ⟨2, ![2048, 1024]⟩
abbrev S2048x512 : Shape := ⟨2, ![2048, 512]⟩
abbrev S1024x512 : Shape := ⟨2, ![1024, 512]⟩
abbrev S1x1024 : Shape := ⟨2, ![1, 1024]⟩
abbrev S1024 : Shape := ⟨1, ![1024]⟩
abbrev S4096 : Shape := ⟨1, ![4096]⟩
abbrev S4096x1 : Shape := ⟨2, ![4096, 1]⟩
abbrev S_ : Shape := ⟨0, ![]⟩
abbrev S8192x1 : Shape := ⟨2, ![8192, 1]⟩
abbrev S2048x1 : Shape := ⟨2, ![2048, 1]⟩
abbrev S2048 : Shape := ⟨1, ![2048]⟩
abbrev S8192 : Shape := ⟨1, ![8192]⟩
abbrev S1x512 : Shape := ⟨2, ![1, 512]⟩

abbrev nBuf : Space → Nat
  | .hbm => 37
  | .vmem => 31
  | .smem => 0
  | _ => 0

abbrev bufTy : (tb : Table) → Fin (tcTables nBuf tb) → BufTy
  | .hbm, ⟨0, _⟩ => ⟨S8192x512, .f32⟩
  | .hbm, ⟨1, _⟩ => ⟨S8192x4096, .f32⟩
  | .hbm, ⟨2, _⟩ => ⟨S512x512, .f32⟩
  | .hbm, ⟨3, _⟩ => ⟨S512x1, .f32⟩
  | .hbm, ⟨4, _⟩ => ⟨S512, .f32⟩
  | .hbm, ⟨5, _⟩ => ⟨S4096x512, .f32⟩
  | .hbm, ⟨6, _⟩ => ⟨S1x4096, .f32⟩
  | .hbm, ⟨7, _⟩ => ⟨S4096, .f32⟩
  | .hbm, ⟨8, _⟩ => ⟨S4096x1, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096, .f32⟩
  | .hbm, ⟨18, _⟩ => ⟨S1x4096, .f32⟩
  | .hbm, ⟨19, _⟩ => ⟨S8192x1, .f32⟩
  | .hbm, ⟨20, _⟩ => ⟨S8192, .f32⟩
  | .hbm, ⟨21, _⟩ => ⟨S8192x512, .f32⟩
  | .hbm, ⟨22, _⟩ => ⟨S8192x1, .f32⟩
  | .hbm, ⟨23, _⟩ => ⟨S8192x512, .f32⟩
  | .hbm, ⟨24, _⟩ => ⟨S8192x512, .f32⟩
  | .hbm, ⟨25, _⟩ => ⟨S4096x512, .f32⟩
  | .hbm, ⟨26, _⟩ => ⟨S4096, .f32⟩
  | .hbm, ⟨27, _⟩ => ⟨S4096x1, .f32⟩
  | .hbm, ⟨28, _⟩ => ⟨S4096x512, .f32⟩
  | .hbm, ⟨29, _⟩ => ⟨S4096x512, .f32⟩
  | .hbm, ⟨30, _⟩ => ⟨S8192x512, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S1x512, .f32⟩
  | .hbm, ⟨35, _⟩ => ⟨S8192x512, .f32⟩
  | .hbm, ⟨36, _⟩ => ⟨S8192x512, .f32⟩
  | .local _ .vmem, ⟨0, _⟩ => ⟨S2048x1024, .f32⟩
  | .local _ .vmem, ⟨1, _⟩ => ⟨S2048x1024, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S1x1024, .f32⟩
  | .local _ .vmem, ⟨11, _⟩ => ⟨S1x1024, .f32⟩
  | .local _ .vmem, ⟨12, _⟩ => ⟨S2048x1, .f32⟩
  | .local _ .vmem, ⟨13, _⟩ => ⟨S2048x1, .f32⟩
  | .local _ .vmem, ⟨14, _⟩ => ⟨S2048x512, .f32⟩
  | .local _ .vmem, ⟨15, _⟩ => ⟨S2048x512, .f32⟩
  | .local _ .vmem, ⟨16, _⟩ => ⟨S512x512, .f32⟩
  | .local _ .vmem, ⟨17, _⟩ => ⟨S2048x512, .f32⟩
  | .local _ .vmem, ⟨18, _⟩ => ⟨S2048x512, .f32⟩
  | .local _ .vmem, ⟨19, _⟩ => ⟨S2048x1024, .f32⟩
  | .local _ .vmem, ⟨20, _⟩ => ⟨S2048x1024, .f32⟩
  | .local _ .vmem, ⟨21, _⟩ => ⟨S2048x512, .f32⟩
  | .local _ .vmem, ⟨22, _⟩ => ⟨S2048x512, .f32⟩
  | .local _ .vmem, ⟨23, _⟩ => ⟨S1024x512, .f32⟩
  | .local _ .vmem, ⟨24, _⟩ => ⟨S1024x512, .f32⟩
  | .local _ .vmem, ⟨25, _⟩ => ⟨S2048x1024, .f32⟩
  | .local _ .vmem, ⟨26, _⟩ => ⟨S2048x1024, .f32⟩
  | .local _ .vmem, ⟨27, _⟩ => ⟨S1024x512, .f32⟩
  | .local _ .vmem, ⟨28, _⟩ => ⟨S1024x512, .f32⟩
  | .local _ .vmem, ⟨29, _⟩ => ⟨S2048x512, .f32⟩
  | .local _ .vmem, ⟨30, _⟩ => ⟨S2048x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![4, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

class Facts₀ : Prop where
  inb_S1024x512_S1024x512_0_0 : ∀ a, (![0, 0] : Fin 2 → Nat) a + S1024x512.size a ≤ S1024x512.size a
  h_S1024x512 : 0 < S1024x512.numel
  inb_S1x1024_S1x1024_0_0 : ∀ a, (![0, 0] : Fin 2 → Nat) a + S1x1024.size a ≤ S1x1024.size a
  h_S1x1024 : 0 < S1x1024.numel
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S1024x512_S1024x512 : S1024x512.ShapeCasts S1024x512
  shapeCasts_S1x1024_S1x1024 : S1x1024.ShapeCasts S1x1024
  reduces_S2048x1024_S1024 : S2048x1024.Reduces [0] S1024
  shapeCasts_S1024_S1x1024 : S1024.ShapeCasts S1x1024
  shapeCasts_S1x4096_S4096 : S1x4096.ShapeCasts S4096
  bcast_S_S4096x1 : S_.BroadcastsInDim S4096x1 (![] : Fin 0 → Fin S4096x1.rank)
  shapeCasts_S4096x1_S4096 : S4096x1.ShapeCasts S4096
  transposes_S4096x1_S1x4096_1_0 : S4096x1.Transposes [1, 0] S1x4096
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S1x1024_S2048x1024 : S1x1024.Broadcasts S2048x1024
  reduces_S2048x1024_S2048 : S2048x1024.Reduces [1] S2048
  shapeCasts_S2048_S2048x1 : S2048.ShapeCasts S2048x1
  shapeCasts_S8192x1_S8192 : S8192x1.ShapeCasts S8192
  inb_S512x512_S512x512_0_0 : ∀ a, (![0, 0] : Fin 2 → Nat) a + S512x512.size a ≤ S512x512.size a
  h_S512x512 : 0 < S512x512.numel
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  shapeCasts_S2048x512_S2048x512 : S2048x512.ShapeCasts S2048x512
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S2048x1024_S2048x512_S1024x512_0_0_1_1_n_n_wf : DotDims.WF S2048x1024 S2048x512 S1024x512 [0] [0] [1] [1] [] []
  dot_S4096x512_S512x1_S4096x1_1_0_0_1_n_n_wf : DotDims.WF S4096x512 S512x1 S4096x1 [1] [0] [0] [1] [] []
  dot_S2048x512_S512x512_S2048x512_1_0_0_1_n_n_wf : DotDims.WF S2048x512 S512x512 S2048x512 [1] [0] [0] [1] [] []
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .f32 = 32 ∨ (Rect.block (s := S8192x4096) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .f32 = 32 ∨ (Rect.block (s := S8192x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x512.size a
  hwx0_2 : ∀ i : grid0.Coords, EltTy.bits .f32 = 32 ∨ (Rect.block (s := S4096x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .f32 = 32 ∨ (Rect.block (s := S8192x4096) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x4096.size a
  hwx1_1 : ∀ i : grid1.Coords, EltTy.bits .f32 = 32 ∨ (Rect.block (s := S1x4096) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x512.size a
  hwx2_0 : ∀ i : grid2.Coords, EltTy.bits .f32 = 32 ∨ (Rect.block (s := S8192x512) S2048x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x512.size a ≤ S8192x512.size a
  hwx2_2 : ∀ i : grid2.Coords, EltTy.bits .f32 = 32 ∨ (Rect.block (s := S8192x512) S2048x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S8192x4096.size a
  hwx3_0 : ∀ i : grid3.Coords, EltTy.bits .f32 = 32 ∨ (Rect.block (s := S8192x4096) S2048x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S8192x512.size a
  hwx3_1 : ∀ i : grid3.Coords, EltTy.bits .f32 = 32 ∨ (Rect.block (s := S8192x512) S2048x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x512.size a ≤ S4096x512.size a
  hwx3_2 : ∀ i : grid3.Coords, EltTy.bits .f32 = 32 ∨ (Rect.block (s := S4096x512) S1024x512.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1024.size a ≤ S8192x4096.size a
  hwx4_0 : ∀ i : grid4.Coords, EltTy.bits .f32 = 32 ∨ (Rect.block (s := S8192x4096) S2048x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S4096x512.size a
  hwx4_1 : ∀ i : grid4.Coords, EltTy.bits .f32 = 32 ∨ (Rect.block (s := S4096x512) S1024x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x512.size a ≤ S8192x512.size a
  hwx4_2 : ∀ i : grid4.Coords, EltTy.bits .f32 = 32 ∨ (Rect.block (s := S8192x512) S2048x512.size (cc4_transform_2 i) (hinb4_2 i)).WholeWords (EltTy.packing .f32)

variable [Facts₀]

def dot_S2048x1024_S2048x512_S1024x512_0_0_1_1_n_n : DotDims S2048x1024 S2048x512 S1024x512 where
  lhsContracting := [0]
  rhsContracting := [0]
  lhsNonContracting := [1]
  rhsNonContracting := [1]
  lhsBatch := []
  rhsBatch := []
  wf := dot_S2048x1024_S2048x512_S1024x512_0_0_1_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2048x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2048x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S2048x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1024x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg1) S2048x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S1024x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v22) S2048x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S8192x512 : Shape := ⟨2, ![8192, 512]⟩
abbrev S8192x4096 : Shape := ⟨2, ![8192, 4096]⟩
abbrev S512x512 : Shape := ⟨2, ![512, 512]⟩
abbrev S512x1 : Shape := ⟨2, ![512, 1]⟩
abbrev S512 : Shape := ⟨1, ![512]⟩
abbrev S4096x8192 : Shape := ⟨2, ![4096, 8192]⟩
abbrev S4096x512 : Shape := ⟨2, ![4096, 512]⟩
abbrev S4096x1 : Shape := ⟨2, ![4096, 1]⟩
abbrev S_ : Shape := ⟨0, ![]⟩
abbrev S4096 : Shape := ⟨1, ![4096]⟩
abbrev S8192x1 : Shape := ⟨2, ![8192, 1]⟩
abbrev S8192 : Shape := ⟨1, ![8192]⟩
abbrev S1x512 : Shape := ⟨2, ![1, 512]⟩

abbrev nBuf : Space → Nat
  | .hbm => 38
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x4096, .f32⟩
  | .hbm, ⟨2, _⟩ => ⟨S512x512, .f32⟩
  | .hbm, ⟨3, _⟩ => ⟨S512x1, .f32⟩
  | .hbm, ⟨4, _⟩ => ⟨S512, .f32⟩
  | .hbm, ⟨5, _⟩ => ⟨S4096x8192, .f32⟩
  | .hbm, ⟨6, _⟩ => ⟨S4096x512, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096, .f32⟩
  | .hbm, ⟨17, _⟩ => ⟨S8192x1, .f32⟩
  | .hbm, ⟨18, _⟩ => ⟨S8192, .f32⟩
  | .hbm, ⟨19, _⟩ => ⟨S_, .f32⟩
  | .hbm, ⟨20, _⟩ => ⟨S4096, .f32⟩
  | .hbm, ⟨21, _⟩ => ⟨S8192x512, .f32⟩
  | .hbm, ⟨22, _⟩ => ⟨S4096x8192, .f32⟩
  | .hbm, ⟨23, _⟩ => ⟨S8192x1, .f32⟩
  | .hbm, ⟨24, _⟩ => ⟨S8192x512, .f32⟩
  | .hbm, ⟨25, _⟩ => ⟨S8192x512, .f32⟩
  | .hbm, ⟨26, _⟩ => ⟨S4096x512, .f32⟩
  | .hbm, ⟨27, _⟩ => ⟨S4096, .f32⟩
  | .hbm, ⟨28, _⟩ => ⟨S4096x1, .f32⟩
  | .hbm, ⟨29, _⟩ => ⟨S4096x512, .f32⟩
  | .hbm, ⟨30, _⟩ => ⟨S4096x512, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  transposes_S8192x4096_S4096x8192_1_0 : S8192x4096.Transposes [1, 0] S4096x8192
  bcast_S_S4096x1 : S_.BroadcastsInDim S4096x1 (![] : Fin 0 → Fin S4096x1.rank)
  shapeCasts_S4096x1_S4096 : S4096x1.ShapeCasts S4096
  shapeCasts_S8192x1_S8192 : S8192x1.ShapeCasts S8192
  reducesTo_S8192x4096_S4096_d0 : S8192x4096.ReducesTo [0] S4096
  h_S_ : 0 < S_.numel
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S4096x8192_S8192x512_S4096x512_1_0_0_1_n_n_wf : DotDims.WF S4096x8192 S8192x512 S4096x512 [1] [0] [0] [1] [] []
  dot_S4096x512_S512x1_S4096x1_1_0_0_1_n_n_wf : DotDims.WF S4096x512 S512x1 S4096x1 [1] [0] [0] [1] [] []
  dot_S8192x4096_S4096x1_S8192x1_1_0_0_1_n_n_wf : DotDims.WF S8192x4096 S4096x1 S8192x1 [1] [0] [0] [1] [] []
  dot_S8192x512_S512x512_S8192x512_1_0_0_1_n_n_wf : DotDims.WF S8192x512 S512x512 S8192x512 [1] [0] [0] [1] [] []
  dot_S8192x4096_S4096x512_S8192x512_1_0_0_1_n_n_wf : DotDims.WF S8192x4096 S4096x512 S8192x512 [1] [0] [0] [1] [] []

variable [Facts₀]

def dot_S4096x8192_S8192x512_S4096x512_1_0_0_1_n_n : DotDims S4096x8192 S8192x512 S4096x512 where
  lhsContracting := [1]
  rhsContracting := [0]
  lhsNonContracting := [0]
  rhsNonContracting := [1]
  lhsBatch := []
  rhsBatch := []
  wf := dot_S4096x8192_S8192x512_S4096x512_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf
def dot_S8192x4096_S4096x1_S8192x1_1_0_0_1_n_n : DotDims S8192x4096 S4096x1 S8192x1 where
  lhsContracting := [1]
  rhsContracting := [0]
  lhsNonContracting := [0]
  rhsNonContracting := [1]
  lhsBatch := []
  rhsBatch := []
  wf := dot_S8192x4096_S4096x1_S8192x1_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x4096_S4096x512_S8192x512_1_0_0_1_n_n : DotDims S8192x4096 S4096x512 S8192x512 where
  lhsContracting := [1]
  rhsContracting := [0]
  lhsNonContracting := [0]
  rhsNonContracting := [1]
  lhsBatch := []
  rhsBatch := []
  wf := dot_S8192x4096_S4096x512_S8192x512_1_0_0_1_n_n_wf

class Facts : Prop extends Facts₀ where

variable [Facts]
-- ==== Proof.Spec.lean ====
/-
  The four whole-array functions this program is made of, each as a sum over one contracted coordinate on the
  extended reals, and the shapes they are stated over. With H the N×E incidence array:
    tdot  — the transpose of a K×M array times a K×N array:  (e, f) ↦ ∑ₖ a(k, e) · b(k, f)     (Hᵀx and Hᵀy)
    pdot  — an M×K array times a K×N array:                   (r, f) ↦ ∑ₖ a(r, k) · b(k, f)     (xW and Ht)
    colsum — the column sums of a K×M array, as one row:      (0, e) ↦ ∑ₖ a(k, e)               (the edge degrees)
    rowdot — an M×K array against one row of K weights:       (r, 0) ↦ ∑ₖ a(r, k) · w(0, k)     (the vertex degrees)
-/
import Idealize.ShloMosaic.PureOps.Ideal.Laws
import Idealize.ShloMosaic.Lib.ValueIdx

noncomputable section

open scoped BigOperators

namespace HgSpec

open Idealize.ShloMosaic Idealize.ShloMosaic.ValueIdx

/-- A rank-2 array of extended reals with literal extents. -/
abbrev Arr2 (a b : Nat) := (⟨2, ![a, b]⟩ : Shape).Idx → EReal
/-- A rank-1 array of extended reals. -/
abbrev Arr1 (a : Nat) := (⟨1, ![a]⟩ : Shape).Idx → EReal

/-- Row coordinate of a rank-2 index, at the literal extent. -/
abbrev r0 {a b : Nat} (j : (⟨2, ![a, b]⟩ : Shape).Idx) : Fin a := ⟨(j 0).val, (j 0).isLt⟩
/-- Column coordinate of a rank-2 index, at the literal extent. -/
abbrev c1 {a b : Nat} (j : (⟨2, ![a, b]⟩ : Shape).Idx) : Fin b := ⟨(j 1).val, (j 1).isLt⟩

/-- The transpose of a K×M array times a K×N array. -/
def tdot (M K N : Nat) (a : Arr2 K M) (b : Arr2 K N) : Arr2 M N :=
  fun j => ∑ k : Fin K, a (ix2 k (r0 j)) * b (ix2 k (c1 j))

/-- An M×K array times a K×N array. -/
def pdot (M K N : Nat) (a : Arr2 M K) (b : Arr2 K N) : Arr2 M N :=
  fun j => ∑ k : Fin K, a (ix2 (r0 j) k) * b (ix2 k (c1 j))

/-- The column sums of a K×M array, laid out as one row. -/
def colsum (K M : Nat) (a : Arr2 K M) : Arr2 1 M :=
  fun j => ∑ k : Fin K, a (ix2 k (c1 j))

/-- Each row of an M×K array against one row of K weights, laid out as one column. -/
def rowdot (M K : Nat) (a : Arr2 M K) (w : Arr2 1 K) : Arr2 M 1 :=
  fun j => ∑ k : Fin K, a (ix2 (r0 j) k) * w (ix2 (0 : Fin 1) k)

end HgSpec

end
-- ==== Proof.Chain.lean ====
/-
  The program's two results as functions of its five argument arrays, over the four sums of the specification:
  the edge weights w = sigmoid((Hᵀx)V) as a vector; the vertex degrees d = rows of H against w; the edge degrees
  δ = column sums of H; and the output  d ⊙ (H ((w ⊙ δ) ⊙ (Hᵀ (d ⊙ (xW))))) + bias,  each ⊙ a row scaling.
  The host operations between the sums are the program's own, applied in its order.
-/
import proofs.«136602_j86895778333083_1_alg».proof.Proof.Gen.KernelIdeal
import proofs.«136602_j86895778333083_1_alg».proof.Proof.Spec

noncomputable section

namespace Cert.KernelIdeal.Chain

open Cert.KernelIdeal Cert.KernelIdeal.Gen Idealize.ShloMosaic

variable (H : FVec Ideal S8192x4096 .f32) (x : FVec Ideal S8192x512 .f32) (Wt : FVec Ideal S512x512 .f32)
  (Vv : FVec Ideal S512x1 .f32) (bias : FVec Ideal S512 .f32)

/-- The column of edge weights: the logistic function of the edge embeddings against V. -/
def sigm : FVec Ideal S4096x1 .f32 :=
  Host.divf (broadcastInDim S4096x1 ![] bcast_S_S4096x1 (constant S_ .f32 0x3F800000#32))
    (addf (broadcastInDim S4096x1 ![] bcast_S_S4096x1 (constant S_ .f32 0x3F800000#32))
      (Host.exp (Host.negf (Host.dotGeneral (φ₁ := .f32) (φ₂ := .f32) dot_S4096x512_S512x1_S4096x1_1_0_0_1_n_n none (HgSpec.tdot 4096 8192 512 H x : FVec Ideal S4096x512 .f32) Vv))))

/-- The edge weights as a vector: the second result. -/
def wvec : FVec Ideal S4096 .f32 := shapeCast S4096 (sigm H x Vv) shapeCasts_S4096x1_S4096

/-- The edge weights as a row. -/
def wrow : FVec Ideal S1x4096 .f32 := transpose S1x4096 [1, 0] (sigm H x Vv) transposes_S4096x1_S1x4096_1_0

/-- The edge degrees as a vector. -/
def dege : FVec Ideal S4096 .f32 := shapeCast S4096 (HgSpec.colsum 8192 4096 H : FVec Ideal S1x4096 .f32) shapeCasts_S1x4096_S4096

/-- The vertex degrees as a vector. -/
def degv : FVec Ideal S8192 .f32 :=
  shapeCast S8192 (HgSpec.rowdot 8192 4096 H (wrow H x Vv) : FVec Ideal S8192x1 .f32) shapeCasts_S8192x1_S8192

/-- The vertex degrees along the rows of an [8192, 512] array. -/
def degvB : FVec Ideal S8192x512 .f32 :=
  broadcastInDim S8192x512 ![0, 1] bcast_S8192x1_S8192x512_0_1 (broadcastInDim S8192x1 ![0] bcast_S8192_S8192x1_0 (degv H x Vv))

/-- The projected features scaled by the vertex degrees. -/
def yarr : FVec Ideal S8192x512 .f32 := mulf (degvB H x Vv) (HgSpec.pdot 8192 512 512 x Wt : FVec Ideal S8192x512 .f32)

/-- The edge features scaled by weight times degree. -/
def tarr : FVec Ideal S4096x512 .f32 :=
  mulf (broadcastInDim S4096x512 ![0, 1] bcast_S4096x1_S4096x512_0_1
      (broadcastInDim S4096x1 ![0] bcast_S4096_S4096x1_0 (mulf (wvec H x Vv) (dege H))))
    (HgSpec.tdot 4096 8192 512 H (yarr H x Wt Vv) : FVec Ideal S4096x512 .f32)

/-- The first result. -/
def out : FVec Ideal S8192x512 .f32 :=
  addf (mulf (degvB H x Vv) (HgSpec.pdot 8192 4096 512 H (tarr H x Wt Vv) : FVec Ideal S8192x512 .f32))
    (broadcastInDim S8192x512 ![0, 1] bcast_S1x512_S8192x512_0_1 (broadcastInDim S1x512 ![1] bcast_S512_S1x512_1 bias))

end Cert.KernelIdeal.Chain

end
-- ==== Proof.LibBlockSum.lean ====
/-
  A sum over K entries taken in consecutive blocks of R entries. `psum R f b` is the sum of the first b blocks;
  it starts at zero, grows by one block's sum at a time, and once the blocks reach K it is the whole sum.
  Stated on the extended reals, where addition is commutative and associative without any finiteness.
-/
import Mathlib.Data.EReal.Basic
import Mathlib.Algebra.BigOperators.Fin
import Mathlib.Algebra.BigOperators.Group.Finset.Basic

noncomputable section

open scoped BigOperators

namespace BlockSum

/-- The sum of the first `b` blocks of `R` consecutive entries of `f`. -/
def psum {K : Nat} (R : Nat) (f : Fin K → EReal) (b : Nat) : EReal :=
  ∑ k : Fin K, if k.val < b * R then f k else 0

/-- No block yet: zero. -/
theorem psum_zero {K : Nat} (R : Nat) (f : Fin K → EReal) : psum R f 0 = 0 := by
  unfold psum
  simp

/-- Entry `r` of block `b`. -/
def blk {K : Nat} (R b : Nat) (hb : (b + 1) * R ≤ K) (r : Fin R) : Fin K :=
  ⟨b * R + r.val, by have := r.isLt; rw [Nat.succ_mul] at hb; omega⟩

/-- One more block: the sum grows by that block's entries. -/
theorem psum_succ {K : Nat} (R : Nat) (f : Fin K → EReal) (b : Nat) (hb : (b + 1) * R ≤ K) :
    psum R f (b + 1) = psum R f b + ∑ r : Fin R, f (blk R b hb r) := by
  unfold psum
  have hsplit : ∀ k : Fin K, (if k.val < (b + 1) * R then f k else 0)
      = (if k.val < b * R then f k else 0) + (if b * R ≤ k.val ∧ k.val < (b + 1) * R then f k else 0) := by
    intro k
    rw [Nat.succ_mul]
    by_cases h1 : k.val < b * R
    · have h2 : k.val < b * R + R := by omega
      have h3 : ¬(b * R ≤ k.val ∧ k.val < b * R + R) := by omega
      rw [if_pos h1, if_pos h2, if_neg h3, add_zero]
    · by_cases h2 : k.val < b * R + R
      · have h3 : b * R ≤ k.val ∧ k.val < b * R + R := by omega
        rw [if_neg h1, if_pos h2, if_pos h3, zero_add]
      · have h3 : ¬(b * R ≤ k.val ∧ k.val < b * R + R) := by omega
        rw [if_neg h1, if_neg h2, if_neg h3, add_zero]
  rw [Finset.sum_congr rfl (fun k _ => hsplit k), Finset.sum_add_distrib]
  congr 1
  rw [← Finset.sum_filter]
  symm
  refine Finset.sum_bij (fun r _ => blk R b hb r) ?_ ?_ ?_ ?_
  · intro r _
    simp only [Finset.mem_filter, Finset.mem_univ, true_and, blk]
    have := r.isLt
    rw [Nat.succ_mul]
    omega
  · intro r1 _ r2 _ h
    have := congrArg Fin.val h
    simp only [blk] at this
    exact Fin.ext (by omega)
  · intro k hk
    simp only [Finset.mem_filter, Finset.mem_univ, true_and] at hk
    rw [Nat.succ_mul] at hk
    exact ⟨⟨k.val - b * R, by omega⟩, Finset.mem_univ _, Fin.ext (by simp only [blk]; omega)⟩
  · intro r _
    rfl

/-- Once the blocks reach `K`, the sum is the whole sum. -/
theorem psum_all {K : Nat} (R : Nat) (f : Fin K → EReal) (B : Nat) (h : K ≤ B * R) : psum R f B = ∑ k : Fin K, f k := by
  unfold psum
  refine Finset.sum_congr rfl fun k _ => ?_
  have : k.val < B * R := lt_of_lt_of_le k.isLt h
  simp [this]

end BlockSum

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.Region0.lean ====
/-
  Region 0: for each block of 1024 edges the kernel sweeps the 8192 vertices in four blocks of 2048, resetting two
  accumulators at the first and adding, per vertex block, the product of the incidence block's transpose with the
  feature block and the incidence block's column sums. After the fourth block the accumulators hold the whole sums:
  the array written back is Hᵀx, and the row written back is the column sums of H.
-/
import proofs.«136602_j86895778333083_1_alg».proof.Proof.Gen.KernelIdeal.Frame
import proofs.«136602_j86895778333083_1_alg».proof.Proof.Spec
import proofs.«136602_j86895778333083_1_alg».proof.Proof.LibBlockSum
import proofs.«136602_j86895778333083_1_alg».proof.Proof.LibPlainDot
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen
open Idealize.ShloMosaic.ValueIdx
open scoped BigOperators

-- the TensorCore's buffer contents when the region is entered: any
variable (V : (c : Dev nD) → (b : Ref sig .tc) → Buf (Elt Ideal) ((c : Thread nD τ).loc b))

/-! ## The product with both operands contracted on their first axis, and the column sum, at an index -/

/-- The dimension numbers of the body's product: both operands contracted on axis 0. -/
abbrev TD : DotDims S2048x1024 S2048x512 S1024x512 := dot_S2048x1024_S2048x512_S1024x512_0_0_1_1_n_n

/-- The left operand's index at output index `j` and contraction index `k`: the contracted coordinate, … -/
theorem td_lhs0 (j : S1024x512.Idx) (k : TD.contr.Idx) : (TD.lhsIdx j k 0).val = (k ⟨0, Nat.one_pos⟩).val :=
  TD.lhsIdx_val_of_single rfl j k
/-- … and the row of `j`. -/
theorem td_lhs1 (j : S1024x512.Idx) (k : TD.contr.Idx) : (TD.lhsIdx j k 1).val = (j 0).val := by
  unfold DotDims.lhsIdx
  rw [dif_neg (show ¬(1 : Fin S2048x1024.rank) ∈ TD.lhsBatch from List.not_mem_nil),
    dif_pos (show (1 : Fin S2048x1024.rank) ∈ TD.lhsNonContracting from List.mem_singleton.mpr rfl)]
  rfl
/-- The right operand's index: the contracted coordinate, … -/
theorem td_rhs0 (j : S1024x512.Idx) (k : TD.contr.Idx) : (TD.rhsIdx j k 0).val = (k ⟨0, Nat.one_pos⟩).val :=
  TD.rhsIdx_val_of_single rfl j k
/-- … and the column of `j`. -/
theorem td_rhs1 (j : S1024x512.Idx) (k : TD.contr.Idx) : (TD.rhsIdx j k 1).val = (j 1).val := by
  unfold DotDims.rhsIdx
  rw [dif_neg (show ¬(1 : Fin S2048x512.rank) ∈ TD.rhsBatch from List.not_mem_nil),
    dif_pos (show (1 : Fin S2048x512.rank) ∈ TD.rhsNonContracting from List.mem_singleton.mpr rfl)]
  rfl

/-- The contraction's sum at output index (p, q), re-indexed by the one contracted coordinate:
    ∑ᵣ a(r, p) · b(r, q). -/
theorem td_sum (a : S2048x1024.Idx → EReal) (b : S2048x512.Idx → EReal) (p : Fin 1024) (q : Fin 512) :
    ∑ k : TD.contr.Idx, a (TD.lhsIdx (ix2 p q) k) * b (TD.rhsIdx (ix2 p q) k)
      = ∑ r : Fin 2048, a (ix2 r p) * b (ix2 r q) := by
  rw [← Equiv.sum_comp (contrEquiv1 TD 2048 rfl rfl).symm]
  refine Finset.sum_congr rfl fun r _ => ?_
  have hk := contrEquiv1_symm_val TD 2048 rfl rfl r
  have el : TD.lhsIdx (ix2 p q) ((contrEquiv1 TD 2048 rfl rfl).symm r) = ix2 r p := funext fun ax => Fin.ext (by
    match ax with
    | ⟨0, _⟩ => exact (td_lhs0 _ _).trans hk
    | ⟨1, _⟩ => exact td_lhs1 _ _)
  have er : TD.rhsIdx (ix2 p q) ((contrEquiv1 TD 2048 rfl rfl).symm r) = ix2 r q := funext fun ax => Fin.ext (by
    match ax with
    | ⟨0, _⟩ => exact (td_rhs0 _ _).trans hk
    | ⟨1, _⟩ => exact td_rhs1 _ _)
  rw [el, er]

/-- A lane sum of a 2048×1024 block over its first axis, from the zero accumulator, reads at column `e` as the sum
    of the column. -/
theorem colSum_apply (src : FVec Ideal S2048x1024 .f32) (e : Fin 1024) :
    multiReduction .add [0] S1024 src 0x00000000#32 reduces_S2048x1024_S1024 (.inl rfl) rfl (ix1 e)
      = ∑ r : Fin 2048, src (ix2 r e) := by
  refine (Ideal.multiReduction_add_single src _ reduces_S2048x1024_S1024 (.inl rfl) rfl (ix1 e)).trans ?_
  refine Finset.sum_congr rfl fun r _ => ?_
  refine congrArg src (funext fun ax => Fin.ext ?_)
  rw [Shape.Reduces.lift_val]
  match ax with
  | ⟨0, _⟩ => rfl
  | ⟨1, _⟩ => rfl

/-- A vector of 1024 entries viewed as the one row of a 1×1024 array. -/
theorem rowCast_apply {α : Type} (x : S1024.Idx → α) (u : Fin 1) (e : Fin 1024) :
    shapeCast S1x1024 x shapeCasts_S1024_S1x1024 (ix2 u e) = x (ix1 e) :=
  shapeCast_apply x shapeCasts_S1024_S1x1024 _ _ (by
    have hu : u.val = 0 := by omega
    rw [Shape.rowMajor_val_two, Shape.rowMajor_val_one]
    show e.val = u.val * 1024 + e.val
    rw [hu, Nat.zero_mul, Nat.zero_add])

/-! ## The body's arithmetic at an index -/

/-- The reset block of the first accumulator is zero everywhere. -/
theorem pay1_apply (j : S1024x512.Idx) : k0_pay1 (F := Ideal) j = 0 := Ideal.ofBits_zero_f32
/-- The reset row of the second accumulator is zero everywhere. -/
theorem pay2_apply (j : S1x1024.Idx) : k0_pay2 (F := Ideal) j = 0 := Ideal.ofBits_zero_f32

/-- The first accumulator's update at (p, q): what it held plus ∑ᵣ h(r, p) · x(r, q) over the block's 2048 rows. -/
theorem pay3_apply (h : Vec Ideal S2048x1024 .f32) (x : Vec Ideal S2048x512 .f32) (acc : Vec Ideal S1024x512 .f32)
    (p : Fin 1024) (q : Fin 512) :
    k0_pay3 h x acc (ix2 p q) = acc (ix2 p q) + ∑ r : Fin 2048, h (ix2 r p) * x (ix2 r q) := by
  unfold k0_pay3
  refine congrArg₂ (· + ·) (congrFun (shapeCast_self acc _) _) ?_
  refine (Ideal.matmul_constant_zero_apply TD none _ _ (ix2 p q)).trans ?_
  exact td_sum _ _ p q

/-- The second accumulator's update at column e: what it held plus the block's column sum ∑ᵣ h(r, e). -/
theorem pay4_apply (h : Vec Ideal S2048x1024 .f32) (acc : Vec Ideal S1x1024 .f32) (u : Fin 1) (e : Fin 1024) :
    k0_pay4 h acc (ix2 u e) = acc (ix2 u e) + ∑ r : Fin 2048, h (ix2 r e) := by
  unfold k0_pay4
  refine congrArg₂ (· + ·) (congrFun (shapeCast_self acc _) _) ?_
  refine (rowCast_apply _ u e).trans ?_
  exact colSum_apply h e

/-! ## What each case of the body leaves in the two accumulators -/

theorem hz : (![0, 0] : Fin 2 → Nat) = fun _ => 0 := funext fun a => by fin_cases a <;> rfl

/-- At a later vertex block the first accumulator ends at its update from what it held. -/
theorem acc2_B {F : FTy → Type} [FloatOps F] (c : Dev nD) (i : grid0.Coords)
    (a2 : Memref sig .tc .vmem S2048x1024 .f32) (h2 : a2.IsWhole) (a3 : Memref sig .tc .vmem S2048x512 .f32) (h3 : a3.IsWhole)
    (a4 : Memref sig .tc .vmem S1024x512 .f32) (h4 : a4.IsWhole) (a5 : Memref sig .tc .vmem S1x1024 .f32) (h5 : a5.IsWhole)
    (hc : ¬cond0_0 i) (x0 : Vec F S2048x1024 .f32) (x1 : Vec F S2048x512 .f32) (xo2 : Vec F S1024x512 .f32) (xo3 : Vec F S1x1024 .f32) :
    out0_B_2 c i a2 h2 a3 h3 a4 h4 a5 h5 hc x0 x1 xo2 xo3 = k0_pay3 x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz]
  simp only [View.readAt_eq_ld, h2.read_unread, h3.read_unread, h4.read_unread, View.ld_unit_zero (S := S2048x1024) hz,
    View.ld_unit_zero (S := S2048x512) hz, View.ld_unit_zero (S := S1024x512) hz]

/-- At a later vertex block the second accumulator ends at its update from what it held. -/
theorem acc3_B {F : FTy → Type} [FloatOps F] (c : Dev nD) (i : grid0.Coords)
    (a2 : Memref sig .tc .vmem S2048x1024 .f32) (h2 : a2.IsWhole) (a3 : Memref sig .tc .vmem S2048x512 .f32) (h3 : a3.IsWhole)
    (a4 : Memref sig .tc .vmem S1024x512 .f32) (h4 : a4.IsWhole) (a5 : Memref sig .tc .vmem S1x1024 .f32) (h5 : a5.IsWhole)
    (hc : ¬cond0_0 i) (x0 : Vec F S2048x1024 .f32) (x1 : Vec F S2048x512 .f32) (xo2 : Vec F S1024x512 .f32) (xo3 : Vec F S1x1024 .f32) :
    out0_B_3 c i a2 h2 a3 h3 a4 h4 a5 h5 hc x0 x1 xo2 xo3 = k0_pay4 x0 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz]
  simp only [View.readAt_eq_ld, h2.read_unread, h5.read_unread, View.ld_unit_zero (S := S2048x1024) hz,
    View.ld_unit_zero (S := S1x1024) hz]

/-- At the first vertex block the first accumulator is reset to zero and then updated. -/
theorem acc2_A {F : FTy → Type} [FloatOps F] (c : Dev nD) (i : grid0.Coords)
    (a2 : Memref sig .tc .vmem S2048x1024 .f32) (h2 : a2.IsWhole) (a3 : Memref sig .tc .vmem S2048x512 .f32) (h3 : a3.IsWhole)
    (a4 : Memref sig .tc .vmem S1024x512 .f32) (h4 : a4.IsWhole) (a5 : Memref sig .tc .vmem S1x1024 .f32) (h5 : a5.IsWhole)
    (hc : cond0_0 i) (x0 : Vec F S2048x1024 .f32) (x1 : Vec F S2048x512 .f32) :
    out0_A_2 c i a2 h2 a3 h3 a4 h4 a5 h5 hc x0 x1 = k0_pay3 x0 x1 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1024x512) hz]
  simp only [View.readAt_eq_ld, h2.read_unread, h3.read_unread, View.ld_unit_zero (S := S2048x1024) hz,
    View.ld_unit_zero (S := S2048x512) hz, View.ld_unit_zero (S := S1024x512) hz, View.readCov_unit_zero (S := S1024x512) _ hz]

/-- At the first vertex block the second accumulator is reset to zero and then updated. -/
theorem acc3_A {F : FTy → Type} [FloatOps F] (c : Dev nD) (i : grid0.Coords)
    (a2 : Memref sig .tc .vmem S2048x1024 .f32) (h2 : a2.IsWhole) (a3 : Memref sig .tc .vmem S2048x512 .f32) (h3 : a3.IsWhole)
    (a4 : Memref sig .tc .vmem S1024x512 .f32) (h4 : a4.IsWhole) (a5 : Memref sig .tc .vmem S1x1024 .f32) (h5 : a5.IsWhole)
    (hc : cond0_0 i) (x0 : Vec F S2048x1024 .f32) (x1 : Vec F S2048x512 .f32) :
    out0_A_3 c i a2 h2 a3 h3 a4 h4 a5 h5 hc x0 x1 = k0_pay4 x0 k0_pay2 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1024) hz]
  simp only [View.readAt_eq_ld, h2.read_unread, View.ld_unit_zero (S := S2048x1024) hz,
    View.ld_unit_zero (S := S1x1024) hz, View.readCov_unit_zero (S := S1x1024) _ hz]

/-! ## Where a block's entry sits in its array -/

/-- The windows' block indices at point `t`, whose grid coordinates are (t / 4, t % 4): the incidence block is
    (t % 4, t / 4), the feature block (t % 4, 0), the first output's block (t / 4, 0), the second's (0, t / 4). -/
theorem idx_facts : ∀ t : Fin cfg0.N,
    win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val / 4 :=
  (by decide +kernel : ∀ t : Fin grid0.N, _)

/-- The incidence array and the feature array as the region finds them, and their blocks at a point. -/
abbrev harr (c : Dev nD) : Vec Ideal S8192x4096 .f32 := V c (Pipeline.arrRef spec0 0)
abbrev xarr (c : Dev nD) : Vec Ideal S8192x512 .f32 := V c (Pipeline.arrRef spec0 1)
abbrev hblk (c : Dev nD) (t : Fin cfg0.N) : Vec Ideal S2048x1024 .f32 := iblk0 V c 0 t
abbrev xblk (c : Dev nD) (t : Fin cfg0.N) : Vec Ideal S2048x512 .f32 := iblk0 V c 1 t

/-- Entry (r, p) of the incidence block at point `t` is the array's at row (t % 4) · 2048 + r, column (t / 4) · 1024 + p. -/
theorem hblk_apply (c : Dev nD) (t : Fin cfg0.N) (r : Fin 2048) (p : Fin 1024) (k : Fin 8192) (e : Fin 4096)
    (hk : k.val = t.val % 4 * 2048 + r.val) (he : e.val = t.val / 4 * 1024 + p.val) :
    hblk V c t (ix2 r p) = harr V c (ix2 k e) := by
  obtain ⟨e0, e1, -⟩ := idx_facts t
  show V c (Pipeline.arrRef spec0 0) (((cfg0.win 0).blk t).view.emb (ix2 r p)) = V c (Pipeline.arrRef spec0 0) (ix2 k e)
  refine congrArg _ (funext fun a => Fin.ext ?_)
  match a with
  | ⟨0, _⟩ => show win0_0.index t (0 : Fin 2) * 2048 + 1 * r.val = k.val; omega
  | ⟨1, _⟩ => show win0_0.index t (1 : Fin 2) * 1024 + 1 * p.val = e.val; omega

/-- Entry (r, q) of the feature block at point `t` is the array's at row (t % 4) · 2048 + r, column q. -/
theorem xblk_apply (c : Dev nD) (t : Fin cfg0.N) (r : Fin 2048) (q : Fin 512) (k : Fin 8192)
    (hk : k.val = t.val % 4 * 2048 + r.val) :
    xblk V c t (ix2 r q) = xarr V c (ix2 k q) := by
  obtain ⟨-, -, e2, e3, -⟩ := idx_facts t
  show V c (Pipeline.arrRef spec0 1) (((cfg0.win 1).blk t).view.emb (ix2 r q)) = V c (Pipeline.arrRef spec0 1) (ix2 k q)
  refine congrArg _ (funext fun a => Fin.ext ?_)
  match a with
  | ⟨0, _⟩ => show win0_1.index t (0 : Fin 2) * 2048 + 1 * r.val = k.val; omega
  | ⟨1, _⟩ => show win0_1.index t (1 : Fin 2) * 512 + 1 * q.val = q.val; omega

/-! ## The first accumulator after each point: the sum over the vertex blocks swept so far -/

/-- The summand of Hᵀx at output (e, q), over the vertices. -/
abbrev fE (c : Dev nD) (e : Fin 4096) (q : Fin 512) : Fin 8192 → EReal := fun k => harr V c (ix2 k e) * xarr V c (ix2 k q)

/-- One update at point `t`: if the accumulator held the sum over the first t % 4 vertex blocks, it now holds the sum
    over the first t % 4 + 1. -/
theorem step2 (c : Dev nD) (t : Fin cfg0.N) (acc : Vec Ideal S1024x512 .f32) (p : Fin 1024) (q : Fin 512) (e : Fin 4096)
    (he : e.val = t.val / 4 * 1024 + p.val) (hacc : acc (ix2 p q) = BlockSum.psum 2048 (fE V c e q) (t.val % 4)) :
    k0_pay3 (hblk V c t) (xblk V c t) acc (ix2 p q) = BlockSum.psum 2048 (fE V c e q) (t.val % 4 + 1) := by
  have hb : (t.val % 4 + 1) * 2048 ≤ 8192 := by omega
  rw [pay3_apply, hacc, BlockSum.psum_succ 2048 _ _ hb]
  refine congrArg (_ + ·) (Finset.sum_congr rfl fun r _ => ?_)
  show hblk V c t (ix2 r p) * xblk V c t (ix2 r q)
    = harr V c (ix2 (BlockSum.blk 2048 (t.val % 4) hb r) e) * xarr V c (ix2 (BlockSum.blk 2048 (t.val % 4) hb r) q)
  rw [hblk_apply V c t r p (BlockSum.blk 2048 (t.val % 4) hb r) e rfl he,
    xblk_apply V c t r q (BlockSum.blk 2048 (t.val % 4) hb r) rfl]

/-- The first accumulator after a point of the first vertex block, … -/
theorem outs1_A (c : Dev nD) (t : Fin cfg0.N) (h0 : t.val % 4 = 0) :
    (outsAt0 V c t.val t.isLt).1 = k0_pay3 (hblk V c t) (xblk V c t) (k0_pay1 (F := Ideal)) := by
  rw [outsAt0_A V c t h0]; dsimp only
  exact acc2_A (F := Ideal) c (grid0.coords t) (ms0_0 t) (hs0_0 t) (ms0_1 t) (hs0_1 t) (ms0_2 t) (hs0_2 t) (ms0_3 t) (hs0_3 t)
    ((hcond0_0 t).mpr h0) (iblk0 V c 0 t) (iblk0 V c 1 t)
/-- … and after a point of a later one. -/
theorem outs1_B (c : Dev nD) (t : Fin cfg0.N) (h0 : ¬t.val % 4 = 0) :
    (outsAt0 V c t.val t.isLt).1 = k0_pay3 (hblk V c t) (xblk V c t)
      (outsAt0 V c (t.val - 1) (Nat.lt_of_le_of_lt (Nat.sub_le _ _) t.isLt)).1 := by
  rw [outsAt0_B V c t h0]; dsimp only
  exact acc2_B (F := Ideal) c (grid0.coords t) (ms0_0 t) (hs0_0 t) (ms0_1 t) (hs0_1 t) (ms0_2 t) (hs0_2 t) (ms0_3 t) (hs0_3 t)
    (fun h => h0 ((hcond0_0 t).mp h)) (iblk0 V c 0 t) (iblk0 V c 1 t)
    (outsAt0 V c (t.val - 1) (Nat.lt_of_le_of_lt (Nat.sub_le _ _) t.isLt)).1
    (outsAt0 V c (t.val - 1) (Nat.lt_of_le_of_lt (Nat.sub_le _ _) t.isLt)).2

/-- After point `n` the first accumulator holds, at (p, q), the sum of the summands of Hᵀx at edge (n / 4) · 1024 + p
    over the first n % 4 + 1 vertex blocks. -/
theorem acc2_eq (c : Dev nD) : ∀ (n : ℕ) (hn : n < cfg0.N) (p : Fin 1024) (q : Fin 512) (e : Fin 4096),
    e.val = n / 4 * 1024 + p.val → (outsAt0 V c n hn).1 (ix2 p q) = BlockSum.psum 2048 (fE V c e q) (n % 4 + 1) := by
  intro n
  induction n with
  | zero =>
    intro hn p q e he
    refine (congrFun (outs1_A V c ⟨0, hn⟩ rfl) (ix2 p q)).trans ?_
    exact step2 V c ⟨0, hn⟩ _ p q e he ((pay1_apply _).trans (BlockSum.psum_zero 2048 _).symm)
  | succ n ih =>
    intro hn p q e he
    by_cases h0 : (n + 1) % 4 = 0
    · refine (congrFun (outs1_A V c ⟨n + 1, hn⟩ h0) (ix2 p q)).trans ?_
      refine step2 V c ⟨n + 1, hn⟩ _ p q e he ?_
      show k0_pay1 (F := Ideal) (ix2 p q) = BlockSum.psum 2048 (fE V c e q) ((n + 1) % 4)
      rw [h0, BlockSum.psum_zero]; exact pay1_apply _
    · refine (congrFun (outs1_B V c ⟨n + 1, hn⟩ h0) (ix2 p q)).trans ?_
      refine step2 V c ⟨n + 1, hn⟩ _ p q e he ?_
      show (outsAt0 V c n (Nat.lt_of_succ_lt hn)).1 (ix2 p q) = BlockSum.psum 2048 (fE V c e q) ((n + 1) % 4)
      rw [ih (Nat.lt_of_succ_lt hn) p q e (by omega)]
      exact congrArg (BlockSum.psum 2048 (fE V c e q)) (by omega)

/-! ## What is written back, and the whole first output array -/

/-- The point with t % 4 = 3 writes back block t / 4 of Hᵀx. -/
theorem flushed2_eq (c : Dev nD) (t : Fin cfg0.N) (hf : (cfg0.win 2).flush t = true) :
    (dat0 (F := Ideal) V c).flushed 2 t
      = ((cfg0.win 2).blk t).view.read (Elt Ideal) (HgSpec.tdot 4096 8192 512 (harr V c) (xarr V c)) := by
  have h3 : t.val % 4 = 3 := (flush0_2 t).mp hf
  have hN : t.val < 16 := lt_of_lt_of_eq t.isLt N_0
  obtain ⟨-, -, -, -, e4, e5, -⟩ := idx_facts t
  show (cfg0.win 2).cut (grid0.coords t) ((dat0 (F := Ideal) V c).after 2 t) = _
  rw [after0_2]
  funext j
  obtain ⟨p, q, rfl⟩ : ∃ (p : Fin 1024) (q : Fin 512), j = ix2 p q := ⟨j 0, j 1, eq_ix2 j⟩
  show (outsAt0 V c t.val t.isLt).1 (ix2 p q)
    = HgSpec.tdot 4096 8192 512 (harr V c) (xarr V c) (((cfg0.win 2).blk t).view.emb (ix2 p q))
  rw [acc2_eq V c t.val t.isLt p q ⟨t.val / 4 * 1024 + p.val, by omega⟩ rfl, h3,
    BlockSum.psum_all 2048 _ 4 (by norm_num)]
  unfold HgSpec.tdot
  refine Finset.sum_congr rfl fun k _ => ?_
  have hr : HgSpec.r0 (((cfg0.win 2).blk t).view.emb (ix2 p q)) = ⟨t.val / 4 * 1024 + p.val, by omega⟩ :=
    Fin.ext (by show win0_2.index t (0 : Fin 2) * 1024 + 1 * p.val = t.val / 4 * 1024 + p.val; omega)
  have hc : HgSpec.c1 (((cfg0.win 2).blk t).view.emb (ix2 p q)) = q :=
    Fin.ext (by show win0_2.index t (1 : Fin 2) * 512 + 1 * q.val = q.val; omega)
  rw [hr, hc]

/-- An index of the first output array is in point `t`'s block iff each coordinate is in the block's range. -/
theorem mem_blk2 (t : Fin cfg0.N) (i : S4096x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v0_0).slice (win0_2.rect t)).set ↔ _
  rw [View.set_slice_whole, Rect.mem_set_unit]
  exact Iff.rfl

/-- Row i of the first output array is written back at the last point of its edge block, 4 · (i / 1024) + 3. -/
theorem cover2 (i : S4096x512.Idx) :
    ∃ t : Fin cfg0.N, (cfg0.win 2).flush t = true ∧ i ∈ ((cfg0.win 2).blk t).view.set := by
  have hi0 : (i 0).val < 4096 := (i 0).isLt
  have hi1 : (i 1).val < 512 := (i 1).isLt
  have hN : cfg0.N = 16 := N_0
  have ht : 4 * ((i 0).val / 1024) + 3 < cfg0.N := lt_of_lt_of_eq (by omega) hN.symm
  obtain ⟨-, -, -, -, e4, e5, -⟩ := idx_facts ⟨4 * ((i 0).val / 1024) + 3, ht⟩
  refine ⟨⟨4 * ((i 0).val / 1024) + 3, ht⟩, (flush0_2 _).mpr (by dsimp only; omega), ?_⟩
  rw [mem_blk2]
  intro a
  match a with
  | ⟨0, _⟩ =>
    show win0_2.index ⟨4 * ((i 0).val / 1024) + 3, ht⟩ (0 : Fin 2) * 1024 ≤ (i 0).val
      ∧ (i 0).val < win0_2.index ⟨4 * ((i 0).val / 1024) + 3, ht⟩ (0 : Fin 2) * 1024 + 1024
    dsimp only at e4; omega
  | ⟨1, _⟩ =>
    show win0_2.index ⟨4 * ((i 0).val / 1024) + 3, ht⟩ (1 : Fin 2) * 512 ≤ (i 1).val
      ∧ (i 1).val < win0_2.index ⟨4 * ((i 0).val / 1024) + 3, ht⟩ (1 : Fin 2) * 512 + 512
    omega

/-- What region 0 leaves in its first output array: the transpose of the incidence array times the features. -/
theorem edge (c : Dev nD) :
    (dat0 (F := Ideal) V c).arrAt 2 cfg0.N
      = HgSpec.tdot 4096 8192 512 (V c (Pipeline.arrRef spec0 0)) (V c (Pipeline.arrRef spec0 1)) :=
  (dat0 (F := Ideal) V c).arrAt_eq_of_cover 2 (HgSpec.tdot 4096 8192 512 (harr V c) (xarr V c)) (flushed2_eq V c) cover2

/-! ## The second accumulator after each point: the column sums over the vertex blocks swept so far -/

/-- The summand of the column sum of H at edge e, over the vertices. -/
abbrev fD (c : Dev nD) (e : Fin 4096) : Fin 8192 → EReal := fun k => harr V c (ix2 k e)

/-- One update at point `t`: if the row held the column sums over the first t % 4 vertex blocks, it now holds those
    over the first t % 4 + 1. -/
theorem step3 (c : Dev nD) (t : Fin cfg0.N) (acc : Vec Ideal S1x1024 .f32) (u : Fin 1) (p : Fin 1024) (e : Fin 4096)
    (he : e.val = t.val / 4 * 1024 + p.val) (hacc : acc (ix2 u p) = BlockSum.psum 2048 (fD V c e) (t.val % 4)) :
    k0_pay4 (hblk V c t) acc (ix2 u p) = BlockSum.psum 2048 (fD V c e) (t.val % 4 + 1) := by
  have hb : (t.val % 4 + 1) * 2048 ≤ 8192 := by omega
  rw [pay4_apply, hacc, BlockSum.psum_succ 2048 _ _ hb]
  refine congrArg (_ + ·) (Finset.sum_congr rfl fun r _ => ?_)
  exact hblk_apply V c t r p (BlockSum.blk 2048 (t.val % 4) hb r) e rfl he

/-- The second accumulator after a point of the first vertex block, … -/
theorem outs2_A (c : Dev nD) (t : Fin cfg0.N) (h0 : t.val % 4 = 0) :
    (outsAt0 V c t.val t.isLt).2 = k0_pay4 (hblk V c t) (k0_pay2 (F := Ideal)) := by
  rw [outsAt0_A V c t h0]; dsimp only
  exact acc3_A (F := Ideal) c (grid0.coords t) (ms0_0 t) (hs0_0 t) (ms0_1 t) (hs0_1 t) (ms0_2 t) (hs0_2 t) (ms0_3 t) (hs0_3 t)
    ((hcond0_0 t).mpr h0) (iblk0 V c 0 t) (iblk0 V c 1 t)
/-- … and after a point of a later one. -/
theorem outs2_B (c : Dev nD) (t : Fin cfg0.N) (h0 : ¬t.val % 4 = 0) :
    (outsAt0 V c t.val t.isLt).2 = k0_pay4 (hblk V c t)
      (outsAt0 V c (t.val - 1) (Nat.lt_of_le_of_lt (Nat.sub_le _ _) t.isLt)).2 := by
  rw [outsAt0_B V c t h0]; dsimp only
  exact acc3_B (F := Ideal) c (grid0.coords t) (ms0_0 t) (hs0_0 t) (ms0_1 t) (hs0_1 t) (ms0_2 t) (hs0_2 t) (ms0_3 t) (hs0_3 t)
    (fun h => h0 ((hcond0_0 t).mp h)) (iblk0 V c 0 t) (iblk0 V c 1 t)
    (outsAt0 V c (t.val - 1) (Nat.lt_of_le_of_lt (Nat.sub_le _ _) t.isLt)).1
    (outsAt0 V c (t.val - 1) (Nat.lt_of_le_of_lt (Nat.sub_le _ _) t.isLt)).2

/-- After point `n` the second accumulator holds, at column p, the column sum of H at edge (n / 4) · 1024 + p over the
    first n % 4 + 1 vertex blocks. -/
theorem acc3_eq (c : Dev nD) : ∀ (n : ℕ) (hn : n < cfg0.N) (u : Fin 1) (p : Fin 1024) (e : Fin 4096),
    e.val = n / 4 * 1024 + p.val → (outsAt0 V c n hn).2 (ix2 u p) = BlockSum.psum 2048 (fD V c e) (n % 4 + 1) := by
  intro n
  induction n with
  | zero =>
    intro hn u p e he
    refine (congrFun (outs2_A V c ⟨0, hn⟩ rfl) (ix2 u p)).trans ?_
    exact step3 V c ⟨0, hn⟩ _ u p e he ((pay2_apply _).trans (BlockSum.psum_zero 2048 _).symm)
  | succ n ih =>
    intro hn u p e he
    by_cases h0 : (n + 1) % 4 = 0
    · refine (congrFun (outs2_A V c ⟨n + 1, hn⟩ h0) (ix2 u p)).trans ?_
      refine step3 V c ⟨n + 1, hn⟩ _ u p e he ?_
      show k0_pay2 (F := Ideal) (ix2 u p) = BlockSum.psum 2048 (fD V c e) ((n + 1) % 4)
      rw [h0, BlockSum.psum_zero]; exact pay2_apply _
    · refine (congrFun (outs2_B V c ⟨n + 1, hn⟩ h0) (ix2 u p)).trans ?_
      refine step3 V c ⟨n + 1, hn⟩ _ u p e he ?_
      show (outsAt0 V c n (Nat.lt_of_succ_lt hn)).2 (ix2 u p) = BlockSum.psum 2048 (fD V c e) ((n + 1) % 4)
      rw [ih (Nat.lt_of_succ_lt hn) u p e (by omega)]
      exact congrArg (BlockSum.psum 2048 (fD V c e)) (by omega)

/-! ## What is written back, and the whole second output array -/

/-- The point with t % 4 = 3 writes back block t / 4 of the row of column sums. -/
theorem flushed3_eq (c : Dev nD) (t : Fin cfg0.N) (hf : (cfg0.win 3).flush t = true) :
    (dat0 (F := Ideal) V c).flushed 3 t
      = ((cfg0.win 3).blk t).view.read (Elt Ideal) (HgSpec.colsum 8192 4096 (harr V c)) := by
  have h3 : t.val % 4 = 3 := (flush0_3 t).mp hf
  have hN : t.val < 16 := lt_of_lt_of_eq t.isLt N_0
  obtain ⟨-, -, -, -, -, -, e6, e7⟩ := idx_facts t
  show (cfg0.win 3).cut (grid0.coords t) ((dat0 (F := Ideal) V c).after 3 t) = _
  rw [after0_3]
  funext j
  obtain ⟨u, p, rfl⟩ : ∃ (u : Fin 1) (p : Fin 1024), j = ix2 u p := ⟨j 0, j 1, eq_ix2 j⟩
  show (outsAt0 V c t.val t.isLt).2 (ix2 u p)
    = HgSpec.colsum 8192 4096 (harr V c) (((cfg0.win 3).blk t).view.emb (ix2 u p))
  rw [acc3_eq V c t.val t.isLt u p ⟨t.val / 4 * 1024 + p.val, by omega⟩ rfl, h3,
    BlockSum.psum_all 2048 _ 4 (by norm_num)]
  unfold HgSpec.colsum
  refine Finset.sum_congr rfl fun k _ => ?_
  have hc : HgSpec.c1 (((cfg0.win 3).blk t).view.emb (ix2 u p)) = ⟨t.val / 4 * 1024 + p.val, by omega⟩ :=
    Fin.ext (by show win0_3.index t (1 : Fin 2) * 1024 + 1 * p.val = t.val / 4 * 1024 + p.val; omega)
  rw [hc]

/-- An index of the second output array is in point `t`'s block iff each coordinate is in the block's range. -/
theorem mem_blk3 (t : Fin cfg0.N) (i : S1x4096.Idx) :
    i ∈ ((cfg0.win 3).blk t).view.set ↔ ∀ a : Fin 2, win0_3.index t a * S1x1024.size a ≤ (i a).val
      ∧ (i a).val < win0_3.index t a * S1x1024.size a + S1x1024.size a := by
  show i ∈ ((View.whole main_v0_1).slice (win0_3.rect t)).set ↔ _
  rw [View.set_slice_whole, Rect.mem_set_unit]
  exact Iff.rfl

/-- Column i of the second output array is written back at the last point of its edge block, 4 · (i / 1024) + 3. -/
theorem cover3 (i : S1x4096.Idx) :
    ∃ t : Fin cfg0.N, (cfg0.win 3).flush t = true ∧ i ∈ ((cfg0.win 3).blk t).view.set := by
  have hi0 : (i 0).val < 1 := (i 0).isLt
  have hi1 : (i 1).val < 4096 := (i 1).isLt
  have hN : cfg0.N = 16 := N_0
  have ht : 4 * ((i 1).val / 1024) + 3 < cfg0.N := lt_of_lt_of_eq (by omega) hN.symm
  obtain ⟨-, -, -, -, -, -, e6, e7⟩ := idx_facts ⟨4 * ((i 1).val / 1024) + 3, ht⟩
  refine ⟨⟨4 * ((i 1).val / 1024) + 3, ht⟩, (flush0_3 _).mpr (by dsimp only; omega), ?_⟩
  rw [mem_blk3]
  intro a
  match a with
  | ⟨0, _⟩ =>
    show win0_3.index ⟨4 * ((i 1).val / 1024) + 3, ht⟩ (0 : Fin 2) * 1 ≤ (i 0).val
      ∧ (i 0).val < win0_3.index ⟨4 * ((i 1).val / 1024) + 3, ht⟩ (0 : Fin 2) * 1 + 1
    omega
  | ⟨1, _⟩ =>
    show win0_3.index ⟨4 * ((i 1).val / 1024) + 3, ht⟩ (1 : Fin 2) * 1024 ≤ (i 1).val
      ∧ (i 1).val < win0_3.index ⟨4 * ((i 1).val / 1024) + 3, ht⟩ (1 : Fin 2) * 1024 + 1024
    dsimp only at e7; omega

/-- What region 0 leaves in its second output array: the column sums of the incidence array, as one row. -/
theorem dege (c : Dev nD) :
    (dat0 (F := Ideal) V c).arrAt 3 cfg0.N = HgSpec.colsum 8192 4096 (V c (Pipeline.arrRef spec0 0)) :=
  (dat0 (F := Ideal) V c).arrAt_eq_of_cover 3 (HgSpec.colsum 8192 4096 (harr V c)) (flushed3_eq V c) cover3

end Cert.KernelIdeal.Region0

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.Region1.lean ====
/-
  Region 1: for each block of 2048 vertices the kernel sweeps the 4096 edges in four blocks of 1024, resetting a column
  accumulator at the first and adding, per edge block, each incidence row's sum against the block of edge weights.
  After the fourth block the column holds each vertex's whole weighted row sum.
-/
import proofs.«136602_j86895778333083_1_alg».proof.Proof.Gen.KernelIdeal.Frame
import proofs.«136602_j86895778333083_1_alg».proof.Proof.Spec
import proofs.«136602_j86895778333083_1_alg».proof.Proof.LibBlockSum
import proofs.«136602_j86895778333083_1_alg».proof.Proof.LibPlainDot
import proofs.«136602_j86895778333083_1_alg».proof.Proof.LibKeepdims
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen

section Work

theorem hz : (![0, 0] : Fin 2 → Nat) = fun _ => 0 := funext fun a => by fin_cases a <;> rfl

section Pieces
variable {F : FTy → Type} [FloatOps F]

/-- At a point that does not reset, the body leaves in the output block the payload of the two input blocks and of
    what the block held: its one store covers the block, and its loads read the whole buffers. -/
theorem out_B (c : Dev nD) (i : grid1.Coords) (a2 : Memref sig .tc .vmem S2048x1024 .f32) (h2 : a2.IsWhole)
    (a3 : Memref sig .tc .vmem S1x1024 .f32) (h3 : a3.IsWhole) (a4 : Memref sig .tc .vmem S2048x1 .f32) (h4 : a4.IsWhole)
    (hc : ¬cond1_0 i) (x0 : Vec F S2048x1024 .f32) (x1 : Vec F S1x1024 .f32) (xo : Vec F S2048x1 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  sl_unfold_words
  rw [View.canon_unit_zero hz]
  simp only [View.readAt_eq_ld, h2.read_unread, h3.read_unread, h4.read_unread, View.ld_unit_zero (S := S2048x1024) hz,
    View.ld_unit_zero (S := S1x1024) hz, View.ld_unit_zero (S := S2048x1) hz, shapeCast_self]

/-- At a point that resets, the body first stores the zero block and then the same payload over it: the later store
    covers the block and reads the zero block back. -/
theorem out_A (c : Dev nD) (i : grid1.Coords) (a2 : Memref sig .tc .vmem S2048x1024 .f32) (h2 : a2.IsWhole)
    (a3 : Memref sig .tc .vmem S1x1024 .f32) (h3 : a3.IsWhole) (a4 : Memref sig .tc .vmem S2048x1 .f32) (h4 : a4.IsWhole)
    (hc : cond1_0 i) (x0 : Vec F S2048x1024 .f32) (x1 : Vec F S1x1024 .f32) :
    out1_A_2 c i a2 h2 a3 h3 a4 h4 hc x0 x1 = k1_pay2 x0 x1 k1_pay1 := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S2048x1) hz, View.readCov_unit_zero (S := S2048x1) _ hz]
  simp only [View.readAt_eq_ld, h2.read_unread, h3.read_unread, View.ld_unit_zero (S := S2048x1024) hz,
    View.ld_unit_zero (S := S1x1024) hz, shapeCast_self]

end Pieces

/-! ## The payload at the extended reals, entry by entry -/

open Idealize.ShloMosaic.ValueIdx Idealize.ShloMosaic.Keepdims

/-- A row `[1, b]` broadcast to `[a, b]` reads, at `(r, k)`, the row at `k`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (k : Fin b) :
    broadcastTo ⟨2, ![a, b]⟩ v h (ix2 r k) = v (ix2 (0 : Fin 1) k) := by
  refine broadcastTo_apply v h (ix2 r k) (ix2 (0 : Fin 1) k) fun ax => ?_
  match ax with
  | ⟨0, _⟩ => rfl
  | ⟨1, _⟩ =>
    show k.val = if b = 1 then 0 else k.val
    split
    · have := k.isLt; omega
    · rfl

/-- The zero block is zero at every entry. -/
theorem pay1_apply (r : Fin 2048) (u : Fin 1) : k1_pay1 (F := Ideal) (ix2 r u) = 0 := by
  unfold k1_pay1
  exact Ideal.ofBits_zero_f32

/-- The accumulating payload at row `r`: what the block held there, plus that row of the incidence block against the
    block of edge weights. -/
theorem pay2_apply (x0 : Vec Ideal S2048x1024 .f32) (x1 : Vec Ideal S1x1024 .f32) (xo : Vec Ideal S2048x1 .f32)
    (r : Fin 2048) (u : Fin 1) :
    k1_pay2 x0 x1 xo (ix2 r u) = xo (ix2 r u) + ∑ k : Fin 1024, x0 (ix2 r k) * x1 (ix2 (0 : Fin 1) k) := by
  unfold k1_pay2
  refine (addf_apply _ _ _).trans ?_
  refine congrArg₂ (· + ·) ?_ ?_
  · exact congrFun (shapeCast_self xo _) (ix2 r u)
  · refine (shapeCast_a_a1_apply _ _ r u).trans ?_
    refine (laneSum_apply _ _ _ _ _ r).trans ?_
    refine Finset.sum_congr rfl fun k _ => ?_
    refine (mulf_apply _ _ _).trans ?_
    refine congrArg (x0 (ix2 r k) * ·) ?_
    refine (broadcastTo_1b_ab_apply _ _ r k).trans ?_
    exact congrFun (shapeCast_self x1 _) (ix2 (0 : Fin 1) k)

/-! ## The blocks read off the arrays -/

-- the TensorCore's buffer contents when the region is entered: any
variable (V : (c : Dev nD) → (b : Ref sig .tc) → Buf (Elt Ideal) ((c : Thread nD τ).loc b))

/-- The incidence array and the row of edge weights as the region finds them, -/
abbrev harr (c : Dev nD) : Vec Ideal S8192x4096 .f32 := V c (Pipeline.arrRef spec1 0)
abbrev warr (c : Dev nD) : Vec Ideal S1x4096 .f32 := V c (Pipeline.arrRef spec1 1)
/-- and their blocks at a grid point. -/
abbrev hblk (c : Dev nD) (t : Fin cfg1.N) : Vec Ideal S2048x1024 .f32 := iblk1 V c 0 t
abbrev wblk (c : Dev nD) (t : Fin cfg1.N) : Vec Ideal S1x1024 .f32 := iblk1 V c 1 t

/-- The block indices over the sixteen points: point `t` is vertex block `t / 4`, edge block `t % 4`. -/
theorem idx0 : ∀ t : Fin grid1.N, win1_0.index t 0 = t.val / 4 ∧ win1_0.index t 1 = t.val % 4 := by decide +kernel
theorem idx1 : ∀ t : Fin grid1.N, win1_1.index t 0 = 0 ∧ win1_1.index t 1 = t.val % 4 := by decide +kernel
theorem idx2 : ∀ t : Fin grid1.N, win1_2.index t 0 = t.val / 4 ∧ win1_2.index t 1 = 0 := by decide +kernel

theorem lt16 (t : Fin cfg1.N) : t.val < 16 := lt_of_lt_of_eq t.isLt (show cfg1.N = 16 from N_1)

/-- The vertex that row `r` of the block at point `t` is. -/
def row (t : Fin cfg1.N) (r : Fin 2048) : Fin 8192 := ⟨t.val / 4 * 2048 + r.val, by have := lt16 t; have := r.isLt; omega⟩
/-- The edge that lane `k` of the block at point `t` is. -/
def col (t : Fin cfg1.N) (k : Fin 1024) : Fin 4096 := ⟨t.val % 4 * 1024 + k.val, by have := k.isLt; omega⟩

/-- An entry of the incidence block at point `t` is the array's at (vertex block × 2048 + row, edge block × 1024 + lane). -/
theorem hblk_apply (c : Dev nD) (t : Fin cfg1.N) (r : Fin 2048) (k : Fin 1024) :
    hblk V c t (ix2 r k) = harr V c (ix2 (row t r) (col t k)) := by
  have hi := idx0 t
  unfold hblk harr iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t 0 * 2048 + 1 * r.val = t.val / 4 * 2048 + r.val; rw [hi.1]; omega
  | ⟨1, _⟩ => show win1_0.index t 1 * 1024 + 1 * k.val = t.val % 4 * 1024 + k.val; rw [hi.2]; omega

/-- An entry of the weight block at point `t` is the row's at (edge block × 1024 + lane). -/
theorem wblk_apply (c : Dev nD) (t : Fin cfg1.N) (k : Fin 1024) :
    wblk V c t (ix2 (0 : Fin 1) k) = warr V c (ix2 (0 : Fin 1) (col t k)) := by
  have hi := idx1 t
  unfold wblk warr iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t 0 * 1 + 1 * 0 = 0; rw [hi.1]
  | ⟨1, _⟩ => show win1_1.index t 1 * 1024 + 1 * k.val = t.val % 4 * 1024 + k.val; rw [hi.2]; omega

/-! ## The running sum -/

/-- The summand of vertex `i`'s degree: its incidence row against the edge weights, edge by edge. -/
def fsum (c : Dev nD) (i : Fin 8192) : Fin 4096 → EReal := fun k => harr V c (ix2 i k) * warr V c (ix2 (0 : Fin 1) k)

theorem hb4 (t : Fin cfg1.N) : (t.val % 4 + 1) * 1024 ≤ 4096 := by omega

/-- One point's contribution at row `r` is the next block of 1024 summands. -/
theorem step_sum (c : Dev nD) (t : Fin cfg1.N) (r : Fin 2048) :
    ∑ k : Fin 1024, hblk V c t (ix2 r k) * wblk V c t (ix2 (0 : Fin 1) k)
      = ∑ k : Fin 1024, fsum V c (row t r) (BlockSum.blk 1024 (t.val % 4) (hb4 t) k) := by
  refine Finset.sum_congr rfl fun k _ => ?_
  rw [hblk_apply V c t r k, wblk_apply V c t k]
  rfl

/-- The body's accumulate at point `t`, over a block that holds the sum of the edge blocks before `t`'s, leaves the
    sum of the edge blocks up to and including `t`'s. -/
theorem acc_step (c : Dev nD) (t : Fin cfg1.N) (r : Fin 2048) (u : Fin 1) (xo : Vec Ideal S2048x1 .f32)
    (hxo : xo (ix2 r u) = BlockSum.psum 1024 (fsum V c (row t r)) (t.val % 4)) :
    k1_pay2 (hblk V c t) (wblk V c t) xo (ix2 r u) = BlockSum.psum 1024 (fsum V c (row t r)) (t.val % 4 + 1) := by
  rw [pay2_apply, hxo, step_sum V c t r, BlockSum.psum_succ 1024 (fsum V c (row t r)) (t.val % 4) (hb4 t)]

/-- After point `n` the output block holds, row by row, the sum over the edge blocks swept so far. -/
theorem outsAt_eq (c : Dev nD) : ∀ (n : ℕ) (h : n < cfg1.N) (r : Fin 2048) (u : Fin 1),
    outsAt1 V c n h (ix2 r u) = BlockSum.psum 1024 (fsum V c (row ⟨n, h⟩ r)) (n % 4 + 1)
  | 0, h, r, u => by
    rw [outsAt1_A V c ⟨0, h⟩ (Nat.zero_mod 4)]
    refine (congrFun (out_A (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr (Nat.zero_mod 4)) (iblk1 V c 0 ⟨0, h⟩) (iblk1 V c 1 ⟨0, h⟩)) (ix2 r u)).trans ?_
    exact acc_step V c ⟨0, h⟩ r u (k1_pay1 (F := Ideal)) ((pay1_apply r u).trans (BlockSum.psum_zero 1024 _).symm)
  | n + 1, h, r, u => by
    by_cases h0 : (n + 1) % 4 = 0
    · rw [outsAt1_A V c ⟨n + 1, h⟩ h0]
      refine (congrFun (out_A (F := Ideal) c (grid1.coords ⟨n + 1, h⟩) (ms1_0 ⟨n + 1, h⟩) (hs1_0 ⟨n + 1, h⟩) (ms1_1 ⟨n + 1, h⟩)
        (hs1_1 ⟨n + 1, h⟩) (ms1_2 ⟨n + 1, h⟩) (hs1_2 ⟨n + 1, h⟩) ((hcond1_0 ⟨n + 1, h⟩).mpr h0) (iblk1 V c 0 ⟨n + 1, h⟩)
        (iblk1 V c 1 ⟨n + 1, h⟩)) (ix2 r u)).trans ?_
      refine acc_step V c ⟨n + 1, h⟩ r u (k1_pay1 (F := Ideal)) ((pay1_apply r u).trans ?_)
      show (0 : EReal) = BlockSum.psum 1024 _ ((n + 1) % 4)
      rw [h0, BlockSum.psum_zero]
    · rw [outsAt1_B V c ⟨n + 1, h⟩ h0]
      dsimp only
      refine (congrFun (out_B (F := Ideal) c (grid1.coords ⟨n + 1, h⟩) (ms1_0 ⟨n + 1, h⟩) (hs1_0 ⟨n + 1, h⟩) (ms1_1 ⟨n + 1, h⟩)
        (hs1_1 ⟨n + 1, h⟩) (ms1_2 ⟨n + 1, h⟩) (hs1_2 ⟨n + 1, h⟩) (fun hh => h0 ((hcond1_0 ⟨n + 1, h⟩).mp hh)) (iblk1 V c 0 ⟨n + 1, h⟩)
        (iblk1 V c 1 ⟨n + 1, h⟩) (outsAt1 V c n (Nat.lt_of_succ_lt h))) (ix2 r u)).trans ?_
      refine acc_step V c ⟨n + 1, h⟩ r u (outsAt1 V c n (Nat.lt_of_succ_lt h)) ?_
      rw [outsAt_eq c n (Nat.lt_of_succ_lt h) r u]
      have hrow : row ⟨n, Nat.lt_of_succ_lt h⟩ r = row ⟨n + 1, h⟩ r := Fin.ext (by show n / 4 * 2048 + r.val = (n + 1) / 4 * 2048 + r.val; omega)
      have hcnt : n % 4 + 1 = (n + 1) % 4 := by omega
      rw [hrow]
      show BlockSum.psum 1024 _ (n % 4 + 1) = BlockSum.psum 1024 _ ((n + 1) % 4)
      rw [hcnt]

/-! ## The write-back and the whole array -/

/-- Each write-back, at the last edge block of a vertex block, writes that block of the vertex degrees. -/
theorem flushed_eq (c : Dev nD) (t : Fin cfg1.N) (hf : (cfg1.win 2).flush t = true) :
    (dat1 V c).flushed 2 t
      = ((cfg1.win 2).blk t).view.read (Elt Ideal) (HgSpec.rowdot 8192 4096 (harr V c) (warr V c)) := by
  have h3 : t.val % 4 = 3 := (flush1_2 t).mp hf
  have hi := idx2 t
  show (cfg1.win 2).cut (grid1.coords t) ((dat1 V c).after 2 t) = _
  rw [after1_2]
  funext y
  rw [View.read_apply]
  have hr : (y 0).val < 2048 := (y 0).isLt
  have hu : (y 1).val < 1 := (y 1).isLt
  have hL : (cfg1.win 2).cut (grid1.coords t) (outsAt1 V c t.val t.isLt) y
      = outsAt1 V c t.val t.isLt (ix2 (⟨(y 0).val, hr⟩ : Fin 2048) (⟨(y 1).val, hu⟩ : Fin 1)) :=
    congrArg (outsAt1 V c t.val t.isLt) (funext fun a => by
      match a with
      | ⟨0, _⟩ => rfl
      | ⟨1, _⟩ => rfl)
  refine hL.trans ?_
  rw [outsAt_eq V c t.val t.isLt ⟨(y 0).val, hr⟩ ⟨(y 1).val, hu⟩, h3]
  refine (BlockSum.psum_all 1024 _ (3 + 1) (by decide)).trans ?_
  show _ = HgSpec.rowdot 8192 4096 (harr V c) (warr V c) (((cfg1.win 2).blk t).view.emb y)
  unfold HgSpec.rowdot
  have hrow : row ⟨t.val, t.isLt⟩ ⟨(y 0).val, hr⟩ = HgSpec.r0 (((cfg1.win 2).blk t).view.emb y) := Fin.ext (by
    show t.val / 4 * 2048 + (y 0).val = win1_2.index t 0 * 2048 + 1 * (y 0).val
    rw [hi.1]; omega)
  rw [hrow]
  rfl

/-- So the region leaves each row of the incidence array against the row of edge weights: the four write-backs, at the
    points 3, 7, 11 and 15, cover the column of vertex degrees. -/
theorem final (c : Dev nD) :
    (dat1 (F := Ideal) V c).arrAt 2 cfg1.N = HgSpec.rowdot 8192 4096 (harr V c) (warr V c) :=
  (dat1 V c).arrAt_eq_of_cover 2 (HgSpec.rowdot 8192 4096 (harr V c) (warr V c)) (flushed_eq V c) fun i => by
    have h0 : (i 0 : Nat) < 8192 := (i 0).isLt
    have h1 : (i 1 : Nat) < 1 := (i 1).isLt
    have hN : cfg1.N = 16 := N_1
    have ht : 4 * ((i 0 : Nat) / 2048) + 3 < cfg1.N := by omega
    refine ⟨⟨4 * ((i 0 : Nat) / 2048) + 3, ht⟩, (flush1_2 _).mpr (by show (4 * ((i 0 : Nat) / 2048) + 3) % 4 = 3; omega), ?_⟩
    have hi := idx2 ⟨4 * ((i 0 : Nat) / 2048) + 3, ht⟩
    show i ∈ ((View.whole main_v11).slice (win1_2.rect ⟨4 * ((i 0 : Nat) / 2048) + 3, ht⟩)).set
    rw [View.set_slice_whole, Rect.mem_set_unit]
    intro a
    match a with
    | ⟨0, _⟩ =>
      show win1_2.index ⟨4 * ((i 0 : Nat) / 2048) + 3, ht⟩ 0 * 2048 ≤ (i 0 : Nat)
        ∧ (i 0 : Nat) < win1_2.index ⟨4 * ((i 0 : Nat) / 2048) + 3, ht⟩ 0 * 2048 + 2048
      rw [hi.1]
      show (4 * ((i 0 : Nat) / 2048) + 3) / 4 * 2048 ≤ (i 0 : Nat) ∧ (i 0 : Nat) < (4 * ((i 0 : Nat) / 2048) + 3) / 4 * 2048 + 2048
      omega
    | ⟨1, _⟩ =>
      show win1_2.index ⟨4 * ((i 0 : Nat) / 2048) + 3, ht⟩ 1 * 1 ≤ (i 1 : Nat)
        ∧ (i 1 : Nat) < win1_2.index ⟨4 * ((i 0 : Nat) / 2048) + 3, ht⟩ 1 * 1 + 1
      rw [hi.2]
      omega

end Work

-- the TensorCore's buffer contents when the region is entered: any
variable (V : (c : Dev nD) → (b : Ref sig .tc) → Buf (Elt Ideal) ((c : Thread nD τ).loc b))

/-- What region 1 leaves in its output array: each row of the incidence array against the row of edge weights. -/
theorem degv (c : Dev nD) :
    (dat1 (F := Ideal) V c).arrAt 2 cfg1.N
      = HgSpec.rowdot 8192 4096 (V c (Pipeline.arrRef spec1 0)) (V c (Pipeline.arrRef spec1 1)) := final V c

end Cert.KernelIdeal.Region1

end
-- ==== Proof.Region2.lean ====
/-
  Region 2: one block of 2048 feature rows at a time, the whole 512×512 weight array each time: the block written back
  is that block of rows of the product xW.
-/
import proofs.«136602_j86895778333083_1_alg».proof.Proof.Gen.KernelIdeal.Frame
import proofs.«136602_j86895778333083_1_alg».proof.Proof.Spec
import proofs.«136602_j86895778333083_1_alg».proof.Proof.LibBlockSum
import proofs.«136602_j86895778333083_1_alg».proof.Proof.LibPlainDot
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen
open Idealize.ShloMosaic.ValueIdx

/-- The zero offsets of a whole-buffer access are the constant zero. -/
theorem offsets_zero : (![0, 0] : Fin 2 → Nat) = fun _ => 0 := funext fun a => by fin_cases a <;> rfl

/-- The body's contraction is the plain one: the left operand's columns against the right operand's rows. -/
theorem record_plain : dot_S2048x512_S512x512_S2048x512_1_0_0_1_n_n = DotDims.plain 2048 512 512 := rfl

/-- The body's product of a block of feature rows with the weights, at an index of the block: the sum over the
    512 contracted coordinates (rounding to bf16 is the identity on the extended reals). -/
theorem block_product (x : Vec Ideal S2048x512 .f32) (w : Vec Ideal S512x512 .f32) (j : S2048x512.Idx) :
    k2_pay1 x w j = ∑ k : Fin 512, x (ix2 ⟨(j 0).val, (j 0).isLt⟩ k) * w (ix2 k ⟨(j 1).val, (j 1).isLt⟩) := by
  unfold k2_pay1
  dsimp only
  rw [record_plain]
  exact PlainDot.matmul_zero_apply 2048 512 512 _ _ j

/-- If `x` is the block of 2048 rows of `X` that starts at row `2048 n`, the product of `x` with `W` at (p, q) is the
    product of `X` with `W` at (2048 n + p, q): row 2048 n + p of `X` is row p of `x`, and the contracted coordinate and
    the weights are the same on both sides. -/
theorem product_of_block (X : HgSpec.Arr2 8192 512) (W : HgSpec.Arr2 512 512)
    (x : Vec Ideal S2048x512 .f32) (w : Vec Ideal S512x512 .f32) (n : Nat)
    (hx : ∀ (y : S2048x512.Idx) (i : S8192x512.Idx), (i 0).val = n * 2048 + (y 0).val → (i 1).val = (y 1).val → x y = X i)
    (hw : ∀ y : S512x512.Idx, w y = W y)
    (j : S2048x512.Idx) (i : S8192x512.Idx) (hi0 : (i 0).val = n * 2048 + (j 0).val) (hi1 : (i 1).val = (j 1).val) :
    k2_pay1 x w j = HgSpec.pdot 8192 512 512 X W i := by
  rw [block_product]
  unfold HgSpec.pdot
  refine Finset.sum_congr rfl fun k _ => ?_
  rw [hw, hx (ix2 ⟨(j 0).val, (j 0).isLt⟩ k) (ix2 (HgSpec.r0 i) k) hi0 rfl]
  have e : (⟨(j 1).val, (j 1).isLt⟩ : Fin 512) = HgSpec.c1 i := Fin.ext hi1.symm
  rw [e]

/-- Where the grid's point `t` puts each window's block: the feature block and the output block at block row `t`,
    the weights at the origin. -/
theorem block_origins : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

-- the TensorCore's buffer contents when the region is entered: any
variable (V : (c : Dev nD) → (b : Ref sig .tc) → Buf (Elt Ideal) ((c : Thread nD τ).loc b))

/-- What point `t` writes back is block `t` of the product of the features with the weights. -/
theorem written_back (c : Dev nD) (t : Fin cfg2.N) :
    (dat2 (F := Ideal) V c).flushed 2 t
      = ((cfg2.win 2).blk t).view.read (Elt Ideal)
          (HgSpec.pdot 8192 512 512 (V c (Pipeline.arrRef spec2 0)) (V c (Pipeline.arrRef spec2 1))) := by
  show (cfg2.win 2).cut (grid2.coords t) ((dat2 V c).after 2 t) = _
  rw [after2_2]
  unfold out2_2
  rw [View.canon_unit_zero offsets_zero]
  simp only [View.ld_unit_zero (S := S2048x512) offsets_zero, View.ld_unit_zero (S := S512x512) offsets_zero]
  obtain ⟨a0, a1, b0, b1, o0, o1⟩ := block_origins t
  funext j
  show k2_pay1 (iblk2 V c 0 t) (iblk2 V c 1 t) j
    = HgSpec.pdot 8192 512 512 (V c (Pipeline.arrRef spec2 0)) (V c (Pipeline.arrRef spec2 1)) (((cfg2.win 2).blk t).view.emb j)
  refine product_of_block _ _ _ _ t.val ?_ ?_ j _ ?_ ?_
  · intro y i h0 h1
    show V c (Pipeline.arrRef spec2 0) (((cfg2.win 0).blk t).view.emb y) = V c (Pipeline.arrRef spec2 0) i
    refine congrArg _ (funext fun a => Fin.ext ?_)
    match a with
    | ⟨0, _⟩ => show win2_0.index t (0 : Fin 2) * 2048 + 1 * (y 0).val = (i 0).val; omega
    | ⟨1, _⟩ => show win2_0.index t (1 : Fin 2) * 512 + 1 * (y 1).val = (i 1).val; omega
  · intro y
    show V c (Pipeline.arrRef spec2 1) (((cfg2.win 1).blk t).view.emb y) = V c (Pipeline.arrRef spec2 1) y
    refine congrArg _ (funext fun a => Fin.ext ?_)
    match a with
    | ⟨0, _⟩ => show win2_1.index t (0 : Fin 2) * 512 + 1 * (y 0).val = (y 0).val; omega
    | ⟨1, _⟩ => show win2_1.index t (1 : Fin 2) * 512 + 1 * (y 1).val = (y 1).val; omega
  · show win2_2.index t (0 : Fin 2) * 2048 + 1 * (j 0).val = t.val * 2048 + (j 0).val; omega
  · show win2_2.index t (1 : Fin 2) * 512 + 1 * (j 1).val = (j 1).val; omega

/-- An index of the output array is in point `t`'s block exactly when each coordinate is in the block's range on its axis. -/
theorem mem_block (t : Fin cfg2.N) (i : S8192x512.Idx) :
    i ∈ ((cfg2.win 2).blk t).view.set
      ↔ ∀ a : Fin 2, win2_2.index t a * S2048x512.size a ≤ (i a).val ∧ (i a).val < win2_2.index t a * S2048x512.size a + S2048x512.size a := by
  show i ∈ ((View.whole main_v13).slice (win2_2.rect t)).set ↔ _
  rw [View.set_slice_whole, Rect.mem_set_unit]
  exact Iff.rfl

/-- Every index of the output array is in the block of some point that writes back: row `r` is in the block of point
    `r / 2048`, whose rows are `2048 (r / 2048) … 2048 (r / 2048) + 2047`, and every block holds all 512 columns. -/
theorem covered (i : S8192x512.Idx) :
    ∃ t : Fin cfg2.N, (cfg2.win 2).flush t = true ∧ i ∈ ((cfg2.win 2).blk t).view.set := by
  have hi0 : (i 0).val < 8192 := (i 0).isLt
  have hi1 : (i 1).val < 512 := (i 1).isLt
  have hN : cfg2.N = 4 := by decide
  obtain ⟨t, ht⟩ : ∃ t : Fin cfg2.N, t.val = (i 0).val / 2048 := ⟨⟨(i 0).val / 2048, by rw [hN]; omega⟩, rfl⟩
  obtain ⟨-, -, -, -, o0, o1⟩ := block_origins t
  refine ⟨t, flush2_2 t, ?_⟩
  rw [mem_block]
  intro a
  match a with
  | ⟨0, _⟩ =>
    show win2_2.index t (0 : Fin 2) * 2048 ≤ (i 0).val ∧ (i 0).val < win2_2.index t (0 : Fin 2) * 2048 + 2048
    omega
  | ⟨1, _⟩ =>
    show win2_2.index t (1 : Fin 2) * 512 ≤ (i 1).val ∧ (i 1).val < win2_2.index t (1 : Fin 2) * 512 + 512
    omega

/-- What region 2 leaves in its output array: the features times the weights. -/
theorem xw (c : Dev nD) :
    (dat2 (F := Ideal) V c).arrAt 2 cfg2.N
      = HgSpec.pdot 8192 512 512 (V c (Pipeline.arrRef spec2 0)) (V c (Pipeline.arrRef spec2 1)) :=
  (dat2 V c).arrAt_eq_of_cover 2 _ (fun t _ => written_back V c t) covered

end Cert.KernelIdeal.Region2

end
-- ==== Proof.Region3.lean ====
/-
  Region 3: as region 0's first output, with the scaled projected features in place of the features: per block of 1024
  edges, the four vertex blocks' products accumulated from a zero reset; the array written back is Hᵀy.
-/
import proofs.«136602_j86895778333083_1_alg».proof.Proof.Gen.KernelIdeal.Frame
import proofs.«136602_j86895778333083_1_alg».proof.Proof.Spec
import proofs.«136602_j86895778333083_1_alg».proof.Proof.LibBlockSum
import proofs.«136602_j86895778333083_1_alg».proof.Proof.LibPlainDot
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region3

open Cert.KernelIdeal Cert.KernelIdeal.Gen

open Idealize.ShloMosaic.ValueIdx
open scoped BigOperators

/-! ## The product contracted on both operands' first axis, at an index -/

/-- The left operand's index at output index `j` and contraction index `k`: the contracted coordinate, … -/
theorem lhs_ax0 (j : S1024x512.Idx) (k : dot_S2048x1024_S2048x512_S1024x512_0_0_1_1_n_n.contr.Idx) :
    (dot_S2048x1024_S2048x512_S1024x512_0_0_1_1_n_n.lhsIdx j k 0).val = (k ⟨0, Nat.one_pos⟩).val :=
  dot_S2048x1024_S2048x512_S1024x512_0_0_1_1_n_n.lhsIdx_val_of_single rfl j k
/-- … and the row of `j`. -/
theorem lhs_ax1 (j : S1024x512.Idx) (k : dot_S2048x1024_S2048x512_S1024x512_0_0_1_1_n_n.contr.Idx) :
    (dot_S2048x1024_S2048x512_S1024x512_0_0_1_1_n_n.lhsIdx j k 1).val = (j 0).val := by
  unfold DotDims.lhsIdx
  rw [dif_neg (show ¬(1 : Fin S2048x1024.rank) ∈ dot_S2048x1024_S2048x512_S1024x512_0_0_1_1_n_n.lhsBatch from List.not_mem_nil),
    dif_pos (show (1 : Fin S2048x1024.rank) ∈ dot_S2048x1024_S2048x512_S1024x512_0_0_1_1_n_n.lhsNonContracting from List.mem_singleton.mpr rfl)]
  rfl
/-- The right operand's index: the contracted coordinate, … -/
theorem rhs_ax0 (j : S1024x512.Idx) (k : dot_S2048x1024_S2048x512_S1024x512_0_0_1_1_n_n.contr.Idx) :
    (dot_S2048x1024_S2048x512_S1024x512_0_0_1_1_n_n.rhsIdx j k 0).val = (k ⟨0, Nat.one_pos⟩).val :=
  dot_S2048x1024_S2048x512_S1024x512_0_0_1_1_n_n.rhsIdx_val_of_single rfl j k
/-- … and the column of `j`. -/
theorem rhs_ax1 (j : S1024x512.Idx) (k : dot_S2048x1024_S2048x512_S1024x512_0_0_1_1_n_n.contr.Idx) :
    (dot_S2048x1024_S2048x512_S1024x512_0_0_1_1_n_n.rhsIdx j k 1).val = (j 1).val := by
  unfold DotDims.rhsIdx
  rw [dif_neg (show ¬(1 : Fin S2048x512.rank) ∈ dot_S2048x1024_S2048x512_S1024x512_0_0_1_1_n_n.rhsBatch from List.not_mem_nil),
    dif_pos (show (1 : Fin S2048x512.rank) ∈ dot_S2048x1024_S2048x512_S1024x512_0_0_1_1_n_n.rhsNonContracting from List.mem_singleton.mpr rfl)]
  rfl

/-- The contraction's sum at output index (p, q), re-indexed by the one contracted coordinate: ∑ᵣ x(r, p) · w(r, q). -/
theorem dot_sum (x : S2048x1024.Idx → EReal) (w : S2048x512.Idx → EReal) (p : Fin 1024) (q : Fin 512) :
    ∑ k : dot_S2048x1024_S2048x512_S1024x512_0_0_1_1_n_n.contr.Idx,
        x (dot_S2048x1024_S2048x512_S1024x512_0_0_1_1_n_n.lhsIdx (ix2 p q) k)
          * w (dot_S2048x1024_S2048x512_S1024x512_0_0_1_1_n_n.rhsIdx (ix2 p q) k)
      = ∑ r : Fin 2048, x (ix2 r p) * w (ix2 r q) := by
  rw [← Equiv.sum_comp (contrEquiv1 dot_S2048x1024_S2048x512_S1024x512_0_0_1_1_n_n 2048 rfl rfl).symm]
  refine Finset.sum_congr rfl fun r _ => ?_
  have hk := contrEquiv1_symm_val dot_S2048x1024_S2048x512_S1024x512_0_0_1_1_n_n 2048 rfl rfl r
  have el : dot_S2048x1024_S2048x512_S1024x512_0_0_1_1_n_n.lhsIdx (ix2 p q)
      ((contrEquiv1 dot_S2048x1024_S2048x512_S1024x512_0_0_1_1_n_n 2048 rfl rfl).symm r) = ix2 r p :=
    funext fun a => Fin.ext (by
      match a with
      | ⟨0, _⟩ => exact (lhs_ax0 _ _).trans hk
      | ⟨1, _⟩ => exact lhs_ax1 _ _)
  have er : dot_S2048x1024_S2048x512_S1024x512_0_0_1_1_n_n.rhsIdx (ix2 p q)
      ((contrEquiv1 dot_S2048x1024_S2048x512_S1024x512_0_0_1_1_n_n 2048 rfl rfl).symm r) = ix2 r q :=
    funext fun a => Fin.ext (by
      match a with
      | ⟨0, _⟩ => exact (rhs_ax0 _ _).trans hk
      | ⟨1, _⟩ => exact rhs_ax1 _ _)
  rw [el, er]

/-! ## The body's arithmetic at an index -/

/-- The accumulate step at output index (p, q): what the buffer held there plus ∑ᵣ x₀(r, p) · x₁(r, q) over the 2048
    rows of the two input blocks (the format changes are the identity on the extended reals). -/
theorem pay2_apply (x0 : Vec Ideal S2048x1024 .f32) (x1 : Vec Ideal S2048x512 .f32) (xo : Vec Ideal S1024x512 .f32)
    (p : Fin 1024) (q : Fin 512) :
    k3_pay2 (F := Ideal) x0 x1 xo (ix2 p q) = xo (ix2 p q) + ∑ r : Fin 2048, x0 (ix2 r p) * x1 (ix2 r q) := by
  unfold k3_pay2
  refine (addf_apply _ _ (ix2 p q)).trans ?_
  refine (congrArg (_ + ·) (Ideal.matmul_constant_zero_apply dot_S2048x1024_S2048x512_S1024x512_0_0_1_1_n_n none _ _ (ix2 p q))).trans ?_
  refine (congrArg (_ + ·) (dot_sum _ _ p q)).trans ?_
  rw [shapeCast_self, shapeCast_self]
  rfl

/-- The reset block is zero everywhere. -/
theorem pay1_apply (j : S1024x512.Idx) : k3_pay1 (F := Ideal) j = 0 := Ideal.ofBits_zero_f32

/-! ## What each case of the body leaves in the output's buffer -/

theorem hz : (![0, 0] : Fin 2 → Nat) = fun _ => 0 := funext fun a => by fin_cases a <;> rfl

section Pieces
variable {F : FTy → Type} [FloatOps F]

/-- Away from the first vertex block: the buffer's contents plus the product of the two input blocks. -/
theorem out_B (c : Dev nD) (i : grid3.Coords) (a0 : Memref sig .tc .vmem S2048x1024 .f32) (h0 : a0.IsWhole)
    (a1 : Memref sig .tc .vmem S2048x512 .f32) (h1 : a1.IsWhole) (a2 : Memref sig .tc .vmem S1024x512 .f32) (h2 : a2.IsWhole)
    (hc : ¬cond3_0 i) (x0 : Vec F S2048x1024 .f32) (x1 : Vec F S2048x512 .f32) (xo : Vec F S1024x512 .f32) :
    out3_B_2 c i a0 h0 a1 h1 a2 h2 hc x0 x1 xo = k3_pay2 x0 x1 xo := by
  unfold out3_B_2
  rw [View.read_writes_eq_canon _ _ _ (cover3_B_2 c i a0 h0 a1 h1 a2 h2 hc x0 x1 xo)]
  unfold kernelRun3_B
  dsimp only
  sl_unfold_words
  rw [View.canon_unit_zero hz]
  simp only [View.readAt_eq_ld, h0.read_unread, h1.read_unread, h2.read_unread, View.ld_unit_zero (S := S2048x1024) hz,
    View.ld_unit_zero (S := S2048x512) hz, View.ld_unit_zero (S := S1024x512) hz, shapeCast_self]

/-- At the first vertex block: the zero block stored first is what the accumulate step reads back. -/
theorem out_A (c : Dev nD) (i : grid3.Coords) (a0 : Memref sig .tc .vmem S2048x1024 .f32) (h0 : a0.IsWhole)
    (a1 : Memref sig .tc .vmem S2048x512 .f32) (h1 : a1.IsWhole) (a2 : Memref sig .tc .vmem S1024x512 .f32) (h2 : a2.IsWhole)
    (hc : cond3_0 i) (x0 : Vec F S2048x1024 .f32) (x1 : Vec F S2048x512 .f32) :
    out3_A_2 c i a0 h0 a1 h1 a2 h2 hc x0 x1 = k3_pay2 x0 x1 k3_pay1 := by
  unfold out3_A_2
  rw [View.read_writes_eq_canon _ _ _ (cover3_A_2 c i a0 h0 a1 h1 a2 h2 hc x0 x1)]
  unfold kernelRun3_A
  dsimp only
  sl_unfold_words
  rw [View.canon_cons_unit_zero (S := S1024x512) hz, View.readCov_unit_zero (S := S1024x512) _ hz]
  simp only [View.readAt_eq_ld, h0.read_unread, h1.read_unread, View.ld_unit_zero (S := S2048x1024) hz,
    View.ld_unit_zero (S := S2048x512) hz, View.ld_unit_zero (S := S1024x512) hz, shapeCast_self]

end Pieces

-- the TensorCore's buffer contents when the region is entered: any
variable (V : (c : Dev nD) → (b : Ref sig .tc) → Buf (Elt Ideal) ((c : Thread nD τ).loc b))

/-! ## The blocks the body reads, as entries of the two arrays -/

/-- The incidence array and the scaled features as the region finds them, and their blocks at a grid point. -/
abbrev Harr (c : Dev nD) : Vec Ideal S8192x4096 .f32 := V c (Pipeline.arrRef spec3 0)
abbrev yarr (c : Dev nD) : Vec Ideal S8192x512 .f32 := V c (Pipeline.arrRef spec3 1)
abbrev Hblk (c : Dev nD) (t : Fin cfg3.N) : Vec Ideal S2048x1024 .f32 := iblk3 V c 0 t
abbrev yblk (c : Dev nD) (t : Fin cfg3.N) : Vec Ideal S2048x512 .f32 := iblk3 V c 1 t

/-- The block indices at point `t`: the incidence block is (vertex block t mod 4, edge block t / 4), the feature block
    is vertex block t mod 4, the output block is edge block t / 4. -/
theorem idx_facts : ∀ t : Fin cfg3.N, win3_0.index t (0 : Fin 2) = t.val % 4 ∧ win3_0.index t (1 : Fin 2) = t.val / 4
    ∧ win3_1.index t (0 : Fin 2) = t.val % 4 ∧ win3_1.index t (1 : Fin 2) = 0
    ∧ win3_2.index t (0 : Fin 2) = t.val / 4 ∧ win3_2.index t (1 : Fin 2) = 0 :=
  (by decide +kernel : ∀ t : Fin grid3.N, _)

/-- Entry (r, p) of the incidence block at point `t` is the array's at (2048 · (t mod 4) + r, 1024 · (t / 4) + p). -/
theorem Hblk_apply (c : Dev nD) (t : Fin cfg3.N) (r : Fin 2048) (p : Fin 1024) (k : Fin 8192) (e : Fin 4096)
    (hk : k.val = t.val % 4 * 2048 + r.val) (he : e.val = t.val / 4 * 1024 + p.val) :
    Hblk V c t (ix2 r p) = Harr V c (ix2 k e) := by
  obtain ⟨i00, i01, -⟩ := idx_facts t
  unfold Hblk iblk3
  rw [View.read_apply]
  show V c (Pipeline.arrRef spec3 0) _ = V c (Pipeline.arrRef spec3 0) _
  congr 1
  funext a
  apply Fin.ext
  match a with
  | ⟨0, _⟩ => show win3_0.index t 0 * 2048 + 1 * r.val = k.val; rw [i00, hk]; omega
  | ⟨1, _⟩ => show win3_0.index t 1 * 1024 + 1 * p.val = e.val; rw [i01, he]; omega

/-- Entry (r, q) of the feature block at point `t` is the array's at (2048 · (t mod 4) + r, q). -/
theorem yblk_apply (c : Dev nD) (t : Fin cfg3.N) (r : Fin 2048) (q : Fin 512) (k : Fin 8192)
    (hk : k.val = t.val % 4 * 2048 + r.val) :
    yblk V c t (ix2 r q) = yarr V c (ix2 k q) := by
  obtain ⟨-, -, i10, i11, -⟩ := idx_facts t
  unfold yblk iblk3
  rw [View.read_apply]
  show V c (Pipeline.arrRef spec3 1) _ = V c (Pipeline.arrRef spec3 1) _
  congr 1
  funext a
  apply Fin.ext
  match a with
  | ⟨0, _⟩ => show win3_1.index t 0 * 2048 + 1 * r.val = k.val; rw [i10, hk]; omega
  | ⟨1, _⟩ => show win3_1.index t 1 * 512 + 1 * q.val = q.val; rw [i11]; omega

/-! ## The running sum -/

/-- The summand of Hᵀy at output index (e, q): vertex `k`'s term H(k, e) · y(k, q). -/
abbrev term (c : Dev nD) (e : Fin 4096) (q : Fin 512) : Fin 8192 → EReal :=
  fun k => Harr V c (ix2 k e) * yarr V c (ix2 k q)

/-- The product of the two blocks at point `t`, at (p, q), is vertex block t mod 4's slice of the sum at
    (1024 · (t / 4) + p, q). -/
theorem block_sum (c : Dev nD) (t : Fin cfg3.N) (p : Fin 1024) (q : Fin 512) (e : Fin 4096)
    (he : e.val = t.val / 4 * 1024 + p.val) (b : ℕ) (hbt : t.val % 4 = b) (hb : (b + 1) * 2048 ≤ 8192) :
    ∑ r : Fin 2048, Hblk V c t (ix2 r p) * yblk V c t (ix2 r q)
      = ∑ r : Fin 2048, term V c e q (BlockSum.blk 2048 b hb r) :=
  Finset.sum_congr rfl fun r _ => by
    have hk : (BlockSum.blk (K := 8192) 2048 b hb r).val = t.val % 4 * 2048 + r.val := by rw [hbt]; rfl
    rw [Hblk_apply V c t r p (BlockSum.blk 2048 b hb r) e hk he, yblk_apply V c t r q (BlockSum.blk 2048 b hb r) hk]

/-- At a point with t mod 4 = 0 the buffer is reset and then holds the product of the two blocks. -/
theorem step_A (c : Dev nD) (t : Fin cfg3.N) (hA : t.val % 4 = 0) (p : Fin 1024) (q : Fin 512) :
    outsAt3 V c t.val t.isLt (ix2 p q) = ∑ r : Fin 2048, Hblk V c t (ix2 r p) * yblk V c t (ix2 r q) := by
  rw [outsAt3_A V c t hA]
  refine (congrFun (out_A (F := Ideal) c (grid3.coords t) (ms3_0 t) (hs3_0 t) (ms3_1 t) (hs3_1 t) (ms3_2 t) (hs3_2 t)
    ((hcond3_0 t).mpr hA) (Hblk V c t) (yblk V c t)) (ix2 p q)).trans ?_
  refine (pay2_apply _ _ _ p q).trans ?_
  rw [pay1_apply, zero_add]

/-- At any other point it holds what the point before left plus the product of the two blocks. -/
theorem step_B (c : Dev nD) (t : Fin cfg3.N) (hB : ¬t.val % 4 = 0) (p : Fin 1024) (q : Fin 512) :
    outsAt3 V c t.val t.isLt (ix2 p q)
      = outsAt3 V c (t.val - 1) (Nat.lt_of_le_of_lt (Nat.sub_le _ _) t.isLt) (ix2 p q)
        + ∑ r : Fin 2048, Hblk V c t (ix2 r p) * yblk V c t (ix2 r q) := by
  rw [outsAt3_B V c t hB]
  refine (congrFun (out_B (F := Ideal) c (grid3.coords t) (ms3_0 t) (hs3_0 t) (ms3_1 t) (hs3_1 t) (ms3_2 t) (hs3_2 t)
    (fun h => hB ((hcond3_0 t).mp h)) (Hblk V c t) (yblk V c t)
    (outsAt3 V c (t.val - 1) (Nat.lt_of_le_of_lt (Nat.sub_le _ _) t.isLt))) (ix2 p q)).trans ?_
  exact pay2_apply _ _ _ p q

/-- The reset point's contents as the sum's first block. -/
theorem sum_A (c : Dev nD) (t : Fin cfg3.N) (hA : t.val % 4 = 0) (p : Fin 1024) (q : Fin 512) (e : Fin 4096)
    (he : e.val = t.val / 4 * 1024 + p.val) :
    outsAt3 V c t.val t.isLt (ix2 p q) = BlockSum.psum 2048 (term V c e q) (0 + 1) := by
  rw [BlockSum.psum_succ 2048 (term V c e q) 0 (by omega), BlockSum.psum_zero, zero_add]
  exact (step_A V c t hA p q).trans (block_sum V c t p q e he 0 hA _)

/-- THE INVARIANT. After point `n`, entry (p, q) of the output's buffer is the sum of the first n mod 4 + 1 vertex
    blocks of the terms of Hᵀy at (1024 · (n / 4) + p, q). -/
theorem outsAt_eq (c : Dev nD) (n : ℕ) : ∀ (h : n < cfg3.N) (b : ℕ), n % 4 = b → ∀ (p : Fin 1024) (q : Fin 512) (e : Fin 4096),
    e.val = n / 4 * 1024 + p.val → outsAt3 V c n h (ix2 p q) = BlockSum.psum 2048 (term V c e q) (b + 1) := by
  induction n with
  | zero =>
    intro h b hb p q e he
    obtain rfl : b = 0 := by omega
    exact sum_A V c ⟨0, h⟩ rfl p q e he
  | succ m ih =>
    intro h b hb p q e he
    have hN : m + 1 < 16 := lt_of_lt_of_eq h N_3
    by_cases h0 : (m + 1) % 4 = 0
    · obtain rfl : b = 0 := by omega
      exact sum_A V c ⟨m + 1, h⟩ h0 p q e he
    · obtain ⟨b', rfl⟩ : ∃ b', b = b' + 1 := ⟨b - 1, by omega⟩
      have hbb : (b' + 1 + 1) * 2048 ≤ 8192 := by omega
      rw [BlockSum.psum_succ 2048 (term V c e q) (b' + 1) hbb]
      refine (step_B V c ⟨m + 1, h⟩ h0 p q).trans ?_
      exact congrArg₂ (· + ·) (ih (Nat.lt_of_succ_lt h) b' (by omega) p q e (by omega))
        (block_sum V c ⟨m + 1, h⟩ p q e he (b' + 1) hb hbb)

/-! ## The write-backs and the array -/

/-- What is written back at a point with t mod 4 = 3 is that point's block of Hᵀy: all four vertex blocks are in. -/
theorem flushed_eq (c : Dev nD) (t : Fin cfg3.N) (hf : (cfg3.win 2).flush t = true) :
    (dat3 V c).flushed 2 t
      = ((cfg3.win 2).blk t).view.read (Elt Ideal) (HgSpec.tdot 4096 8192 512 (Harr V c) (yarr V c)) := by
  have h3 : t.val % 4 = 3 := (flush3_2 t).mp hf
  obtain ⟨-, -, -, -, i20, i21⟩ := idx_facts t
  show (cfg3.win 2).cut (grid3.coords t) ((dat3 V c).after 2 t) = _
  rw [after3_2]
  funext j
  obtain ⟨p, q, rfl⟩ : ∃ (p : Fin 1024) (q : Fin 512), j = ix2 p q := ⟨j 0, j 1, eq_ix2 j⟩
  show outsAt3 V c t.val t.isLt (ix2 p q)
    = HgSpec.tdot 4096 8192 512 (Harr V c) (yarr V c) (((cfg3.win 2).blk t).view.emb (ix2 p q))
  have he : (HgSpec.r0 (((cfg3.win 2).blk t).view.emb (ix2 p q))).val = t.val / 4 * 1024 + p.val := by
    show win3_2.index t 0 * 1024 + 1 * p.val = _
    rw [i20]; omega
  have hq : HgSpec.c1 (((cfg3.win 2).blk t).view.emb (ix2 p q)) = q := Fin.ext (by
    show win3_2.index t 1 * 512 + 1 * q.val = q.val
    rw [i21]; omega)
  rw [outsAt_eq V c t.val t.isLt 3 h3 p q _ he, BlockSum.psum_all 2048 _ 4 (by norm_num)]
  unfold HgSpec.tdot
  rw [hq]

/-- An index of the output array is in point `t`'s block iff each coordinate is in the block's range on its axis. -/
theorem mem_blk (t : Fin cfg3.N) (i : S4096x512.Idx) :
    i ∈ ((cfg3.win 2).blk t).view.set ↔ ∀ a : Fin 2, win3_2.index t a * S1024x512.size a ≤ (i a).val
      ∧ (i a).val < win3_2.index t a * S1024x512.size a + S1024x512.size a := by
  show i ∈ ((View.whole main_v17).slice (win3_2.rect t)).set ↔ _
  rw [View.set_slice_whole, Rect.mem_set_unit]
  exact Iff.rfl

/-- Every row of the output array is written back: row `i` by the last point of edge block i / 1024. -/
theorem cover (i : S4096x512.Idx) : ∃ t : Fin cfg3.N, (cfg3.win 2).flush t = true ∧ i ∈ ((cfg3.win 2).blk t).view.set := by
  have hi0 : (i 0).val < 4096 := (i 0).isLt
  have hi1 : (i 1).val < 512 := (i 1).isLt
  obtain ⟨t, ht⟩ : ∃ t : Fin cfg3.N, t.val = 4 * ((i 0).val / 1024) + 3 :=
    ⟨⟨4 * ((i 0).val / 1024) + 3, by rw [show cfg3.N = 16 from N_3]; omega⟩, rfl⟩
  obtain ⟨-, -, -, -, i20, i21⟩ := idx_facts t
  refine ⟨t, (flush3_2 t).mpr (by omega), ?_⟩
  rw [mem_blk]
  intro a
  match a with
  | ⟨0, _⟩ => show win3_2.index t 0 * 1024 ≤ (i 0).val ∧ (i 0).val < win3_2.index t 0 * 1024 + 1024; rw [i20]; omega
  | ⟨1, _⟩ => show win3_2.index t 1 * 512 ≤ (i 1).val ∧ (i 1).val < win3_2.index t 1 * 512 + 512; rw [i21]; omega

/-- What region 3 leaves in its output array: the transpose of the incidence array times the scaled features. -/
theorem tpre (c : Dev nD) :
    (dat3 (F := Ideal) V c).arrAt 2 cfg3.N
      = HgSpec.tdot 4096 8192 512 (V c (Pipeline.arrRef spec3 0)) (V c (Pipeline.arrRef spec3 1)) :=
  (dat3 V c).arrAt_eq_of_cover 2 (HgSpec.tdot 4096 8192 512 (Harr V c) (yarr V c)) (flushed_eq V c) cover

end Cert.KernelIdeal.Region3

end
-- ==== Proof.Region4.lean ====
/-
  Region 4: per block of 2048 vertices, the four edge blocks' products of the incidence block with the block of scaled
  edge features accumulated from a zero reset; the array written back is Ht.
-/
import proofs.«136602_j86895778333083_1_alg».proof.Proof.Gen.KernelIdeal.Frame
import proofs.«136602_j86895778333083_1_alg».proof.Proof.Spec
import proofs.«136602_j86895778333083_1_alg».proof.Proof.LibBlockSum
import proofs.«136602_j86895778333083_1_alg».proof.Proof.LibPlainDot
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region4

open Cert.KernelIdeal Cert.KernelIdeal.Gen

open Idealize.ShloMosaic.ValueIdx
open scoped BigOperators

/-! ## What the body leaves in the output's staging buffer, in each case -/

section Pieces
variable {F : FTy → Type} [FloatOps F]

theorem hz : (![0, 0] : Fin 2 → Nat) = fun _ => 0 := funext fun a => by fin_cases a <;> rfl

/-- At a point that does not reset: the buffer's contents plus the product of the two input blocks. -/
theorem out_B (c : Dev nD) (i : grid4.Coords) (a0 : Memref sig .tc .vmem S2048x1024 .f32) (h0 : a0.IsWhole)
    (a1 : Memref sig .tc .vmem S1024x512 .f32) (h1 : a1.IsWhole) (a2 : Memref sig .tc .vmem S2048x512 .f32) (h2 : a2.IsWhole)
    (hc : ¬cond4_0 i) (x0 : Vec F S2048x1024 .f32) (x1 : Vec F S1024x512 .f32) (xo : Vec F S2048x512 .f32) :
    out4_B_2 c i a0 h0 a1 h1 a2 h2 hc x0 x1 xo = k4_pay2 x0 x1 xo := by
  unfold out4_B_2
  rw [View.read_writes_eq_canon _ _ _ (cover4_B_2 c i a0 h0 a1 h1 a2 h2 hc x0 x1 xo)]
  unfold kernelRun4_B
  dsimp only
  sl_unfold_words
  rw [View.canon_unit_zero hz]
  simp only [View.readAt_eq_ld, h0.read_unread, h1.read_unread, h2.read_unread, View.ld_unit_zero (S := S2048x1024) hz,
    View.ld_unit_zero (S := S1024x512) hz, View.ld_unit_zero (S := S2048x512) hz, shapeCast_self]

/-- At a point that resets: the same over the zero block, which the reset stored and the accumulation read back. -/
theorem out_A (c : Dev nD) (i : grid4.Coords) (a0 : Memref sig .tc .vmem S2048x1024 .f32) (h0 : a0.IsWhole)
    (a1 : Memref sig .tc .vmem S1024x512 .f32) (h1 : a1.IsWhole) (a2 : Memref sig .tc .vmem S2048x512 .f32) (h2 : a2.IsWhole)
    (hc : cond4_0 i) (x0 : Vec F S2048x1024 .f32) (x1 : Vec F S1024x512 .f32) :
    out4_A_2 c i a0 h0 a1 h1 a2 h2 hc x0 x1 = k4_pay2 x0 x1 (k4_pay1 (F := F)) := by
  unfold out4_A_2
  rw [View.read_writes_eq_canon _ _ _ (cover4_A_2 c i a0 h0 a1 h1 a2 h2 hc x0 x1)]
  unfold kernelRun4_A
  dsimp only
  sl_unfold_words
  rw [View.canon_cons_unit_zero (S := S2048x512) hz, View.readCov_unit_zero (S := S2048x512) _ hz]
  simp only [View.readAt_eq_ld, h0.read_unread, h1.read_unread, View.ld_unit_zero (S := S2048x1024) hz,
    View.ld_unit_zero (S := S1024x512) hz, View.ld_unit_zero (S := S2048x512) hz, View.readCov_unit_zero (S := S2048x512) _ hz, shapeCast_self]

end Pieces

/-! ## The body's arithmetic at an index, over the extended reals -/

/-- The reset block is zero everywhere. -/
theorem pay1_apply (j : S2048x512.Idx) : k4_pay1 (F := Ideal) j = 0 := by
  unfold k4_pay1
  exact Ideal.ofBits_zero_f32

/-- The accumulation at (p, q): the old entry plus the sum over the 1024 columns k of the incidence block of
    its entry (p, k) times the feature block's entry (k, q); the narrowing to bf16 is the identity on extended reals. -/
theorem pay2_apply (x0 : Vec Ideal S2048x1024 .f32) (x1 : Vec Ideal S1024x512 .f32) (xo : Vec Ideal S2048x512 .f32)
    (p : Fin 2048) (q : Fin 512) :
    k4_pay2 (F := Ideal) x0 x1 xo (ix2 p q) = xo (ix2 p q) + ∑ k : Fin 1024, x0 (ix2 p k) * x1 (ix2 k q) := by
  unfold k4_pay2
  refine (addf_apply _ _ (ix2 p q)).trans ?_
  refine congrArg₂ (· + ·) ?_ ?_
  · exact congrFun (shapeCast_self xo _) (ix2 p q)
  · refine (PlainDot.matmul_zero_apply 2048 1024 512 _ _ (ix2 p q)).trans ?_
    refine Finset.sum_congr rfl fun k _ => ?_
    refine congrArg₂ (· * ·) ?_ ?_
    · rfl
    · exact congrFun (shapeCast_self x1 _) (ix2 k q)

/-! ## The blocks, as parts of their arrays -/

-- the TensorCore's buffer contents when the region is entered: any
variable (V : (c : Dev nD) → (b : Ref sig .tc) → Buf (Elt Ideal) ((c : Thread nD τ).loc b))

/-- The incidence array H and the scaled edge features t, as the region finds them. -/
abbrev Harr (c : Dev nD) : Vec Ideal S8192x4096 .f32 := V c (Pipeline.arrRef spec4 0)
abbrev Tarr (c : Dev nD) : Vec Ideal S4096x512 .f32 := V c (Pipeline.arrRef spec4 1)
/-- Their blocks at a grid point. -/
abbrev Hblk (c : Dev nD) (t : Fin cfg4.N) : Vec Ideal S2048x1024 .f32 := iblk4 V c 0 t
abbrev Tblk (c : Dev nD) (t : Fin cfg4.N) : Vec Ideal S1024x512 .f32 := iblk4 V c 1 t

/-- Point t has coordinates (t / 4, t % 4): H's block index is (t / 4, t % 4), t's is (t % 4, 0), the output's (t / 4, 0). -/
theorem idx4_0 : ∀ t : Fin cfg4.N, win4_0.index t 0 = t.val / 4 ∧ win4_0.index t 1 = t.val % 4 :=
  (by decide +kernel : ∀ t : Fin grid4.N, win4_0.index t 0 = t.val / 4 ∧ win4_0.index t 1 = t.val % 4)
theorem idx4_1 : ∀ t : Fin cfg4.N, win4_1.index t 0 = t.val % 4 ∧ win4_1.index t 1 = 0 :=
  (by decide +kernel : ∀ t : Fin grid4.N, win4_1.index t 0 = t.val % 4 ∧ win4_1.index t 1 = 0)
theorem idx4_2 : ∀ t : Fin cfg4.N, win4_2.index t 0 = t.val / 4 ∧ win4_2.index t 1 = 0 :=
  (by decide +kernel : ∀ t : Fin grid4.N, win4_2.index t 0 = t.val / 4 ∧ win4_2.index t 1 = 0)

/-- Entry (p, k) of H's block at point t is H's entry (2048 (t / 4) + p, 1024 (t % 4) + k). -/
theorem Hblk_apply (c : Dev nD) (t : Fin cfg4.N) (p : Fin 2048) (k : Fin 1024) (i : Fin 8192) (l : Fin 4096)
    (hi : i.val = 2048 * (t.val / 4) + p.val) (hl : l.val = 1024 * (t.val % 4) + k.val) :
    Hblk V c t (ix2 p k) = Harr V c (ix2 i l) := by
  unfold Hblk iblk4
  rw [View.read_apply]
  show Harr V c (((cfg4.win 0).blk t).view.emb (ix2 p k)) = Harr V c (ix2 i l)
  refine congrArg (Harr V c) (funext fun a => Fin.ext ?_)
  match a with
  | ⟨0, _⟩ => show win4_0.index t 0 * 2048 + 1 * p.val = i.val; rw [(idx4_0 t).1, hi]; omega
  | ⟨1, _⟩ => show win4_0.index t 1 * 1024 + 1 * k.val = l.val; rw [(idx4_0 t).2, hl]; omega

/-- Entry (k, q) of t's block at point t is t's entry (1024 (t % 4) + k, q). -/
theorem Tblk_apply (c : Dev nD) (t : Fin cfg4.N) (k : Fin 1024) (q : Fin 512) (l : Fin 4096)
    (hl : l.val = 1024 * (t.val % 4) + k.val) :
    Tblk V c t (ix2 k q) = Tarr V c (ix2 l q) := by
  unfold Tblk iblk4
  rw [View.read_apply]
  show Tarr V c (((cfg4.win 1).blk t).view.emb (ix2 k q)) = Tarr V c (ix2 l q)
  refine congrArg (Tarr V c) (funext fun a => Fin.ext ?_)
  match a with
  | ⟨0, _⟩ => show win4_1.index t 0 * 1024 + 1 * k.val = l.val; rw [(idx4_1 t).1, hl]; omega
  | ⟨1, _⟩ => show win4_1.index t 1 * 512 + 1 * q.val = q.val; rw [(idx4_1 t).2]; omega

/-! ## The running sum -/

/-- The summand of the product at output entry (i, q): k ↦ H(i, k) · t(k, q). -/
abbrev term (c : Dev nD) (i : Fin 8192) (q : Fin 512) : Fin 4096 → EReal :=
  fun k => Harr V c (ix2 i k) * Tarr V c (ix2 k q)

theorem blk_val (b : Nat) (hb : (b + 1) * 1024 ≤ 4096) (r : Fin 1024) :
    (BlockSum.blk (K := 4096) 1024 b hb r).val = b * 1024 + r.val := rfl

/-- One edge block's contribution at point t: the product of the two blocks at (p, q) is the sum of the summand
    over the 1024 consecutive edges of block t % 4. -/
theorem block_sum (c : Dev nD) (t : Fin cfg4.N) (p : Fin 2048) (q : Fin 512) (i : Fin 8192)
    (hi : i.val = 2048 * (t.val / 4) + p.val) (hb : (t.val % 4 + 1) * 1024 ≤ 4096) :
    ∑ k : Fin 1024, Hblk V c t (ix2 p k) * Tblk V c t (ix2 k q)
      = ∑ r : Fin 1024, term V c i q (BlockSum.blk 1024 (t.val % 4) hb r) := by
  refine Finset.sum_congr rfl fun r _ => ?_
  have hl : (BlockSum.blk (K := 4096) 1024 (t.val % 4) hb r).val = 1024 * (t.val % 4) + r.val := by
    rw [blk_val]; omega
  rw [Hblk_apply V c t p r i (BlockSum.blk 1024 (t.val % 4) hb r) hi hl,
    Tblk_apply V c t r q (BlockSum.blk 1024 (t.val % 4) hb r) hl]

/-- A point that resets leaves the first edge block's partial sum. -/
theorem step_A (c : Dev nD) (t : Fin cfg4.N) (h0 : t.val % 4 = 0) (p : Fin 2048) (q : Fin 512) (i : Fin 8192)
    (hi : i.val = 2048 * (t.val / 4) + p.val) :
    outsAt4 V c t.val t.isLt (ix2 p q) = BlockSum.psum 1024 (term V c i q) (t.val % 4 + 1) := by
  have hb : (t.val % 4 + 1) * 1024 ≤ 4096 := by omega
  rw [outsAt4_A V c t h0]
  refine (congrFun (out_A (F := Ideal) c (grid4.coords t) (ms4_0 t) (hs4_0 t) (ms4_1 t) (hs4_1 t) (ms4_2 t) (hs4_2 t)
    ((hcond4_0 t).mpr h0) (Hblk V c t) (Tblk V c t)) (ix2 p q)).trans ?_
  refine (pay2_apply (Hblk V c t) (Tblk V c t) (k4_pay1 (F := Ideal)) p q).trans ?_
  rw [pay1_apply, BlockSum.psum_succ 1024 (term V c i q) (t.val % 4) hb, block_sum V c t p q i hi hb]
  congr 1
  rw [h0, BlockSum.psum_zero]

/-- A later point adds its edge block's contribution to what the point before left. -/
theorem step_B (c : Dev nD) (t : Fin cfg4.N) (h0 : ¬t.val % 4 = 0) (p : Fin 2048) (q : Fin 512) (i : Fin 8192)
    (hi : i.val = 2048 * (t.val / 4) + p.val)
    (ih : outsAt4 V c (t.val - 1) (Nat.lt_of_le_of_lt (Nat.sub_le _ _) t.isLt) (ix2 p q)
      = BlockSum.psum 1024 (term V c i q) (t.val % 4)) :
    outsAt4 V c t.val t.isLt (ix2 p q) = BlockSum.psum 1024 (term V c i q) (t.val % 4 + 1) := by
  have hb : (t.val % 4 + 1) * 1024 ≤ 4096 := by omega
  rw [outsAt4_B V c t h0]
  refine (congrFun (out_B (F := Ideal) c (grid4.coords t) (ms4_0 t) (hs4_0 t) (ms4_1 t) (hs4_1 t) (ms4_2 t) (hs4_2 t)
    (fun h => h0 ((hcond4_0 t).mp h)) (Hblk V c t) (Tblk V c t)
    (outsAt4 V c (t.val - 1) (Nat.lt_of_le_of_lt (Nat.sub_le _ _) t.isLt))) (ix2 p q)).trans ?_
  refine (pay2_apply (Hblk V c t) (Tblk V c t) (outsAt4 V c (t.val - 1) (Nat.lt_of_le_of_lt (Nat.sub_le _ _) t.isLt)) p q).trans ?_
  rw [ih, BlockSum.psum_succ 1024 (term V c i q) (t.val % 4) hb, block_sum V c t p q i hi hb]

/-- After point n the buffer holds, at (p, q), the sum of the summand of output row 2048 (n / 4) + p over the first
    n % 4 + 1 edge blocks — by induction on the point. -/
theorem outsAt_eq (c : Dev nD) : ∀ (n : ℕ) (h : n < cfg4.N) (p : Fin 2048) (q : Fin 512) (i : Fin 8192),
    i.val = 2048 * (n / 4) + p.val →
    outsAt4 V c n h (ix2 p q) = BlockSum.psum 1024 (term V c i q) (n % 4 + 1)
  | 0, h, p, q, i, hi => step_A V c ⟨0, h⟩ rfl p q i hi
  | n + 1, h, p, q, i, hi => by
    by_cases h0 : (n + 1) % 4 = 0
    · exact step_A V c ⟨n + 1, h⟩ h0 p q i hi
    · have hq : (n + 1) / 4 = n / 4 := by omega
      have hm : n % 4 + 1 = (n + 1) % 4 := by omega
      have ih := outsAt_eq c n (Nat.lt_of_succ_lt h) p q i (by rw [hi, hq])
      rw [hm] at ih
      exact step_B V c ⟨n + 1, h⟩ h0 p q i hi ih

/-! ## The write-back and the whole array -/

/-- Entry (p, q) of the output's block at point t, read off an array G of the output's shape, is G's entry
    (2048 (t / 4) + p, q). -/
theorem oblk_apply (G : Vec Ideal S8192x512 .f32) (t : Fin cfg4.N) (p : Fin 2048) (q : Fin 512) (i : Fin 8192)
    (hi : i.val = 2048 * (t.val / 4) + p.val) :
    ((cfg4.win 2).blk t).view.read (Elt Ideal) G (ix2 p q) = G (ix2 i q) := by
  rw [View.read_apply]
  show G (((cfg4.win 2).blk t).view.emb (ix2 p q)) = G (ix2 i q)
  refine congrArg G (funext fun a => Fin.ext ?_)
  match a with
  | ⟨0, _⟩ => show win4_2.index t 0 * 2048 + 1 * p.val = i.val; rw [(idx4_2 t).1, hi]; omega
  | ⟨1, _⟩ => show win4_2.index t 1 * 512 + 1 * q.val = q.val; rw [(idx4_2 t).2]; omega

/-- The write-back happens after the fourth edge block (t % 4 = 3): the four blocks are all 4096 edges, so the
    block written is the block of the product Ht. -/
theorem flushed_eq (c : Dev nD) (t : Fin cfg4.N) (hf : (cfg4.win 2).flush t = true) :
    (dat4 V c).flushed 2 t
      = ((cfg4.win 2).blk t).view.read (Elt Ideal) (HgSpec.pdot 8192 4096 512 (Harr V c) (Tarr V c)) := by
  have h3 : t.val % 4 = 3 := (flush4_2 t).mp hf
  have hN : t.val < 16 := lt_of_lt_of_eq t.isLt (show cfg4.N = 16 from N_4)
  show (cfg4.win 2).cut (grid4.coords t) ((dat4 V c).after 2 t) = _
  rw [after4_2]
  refine funext fun j => ?_
  obtain ⟨p, q, rfl⟩ : ∃ (p : Fin 2048) (q : Fin 512), j = ix2 p q := ⟨j 0, j 1, eq_ix2 j⟩
  have hi : (⟨2048 * (t.val / 4) + p.val, by omega⟩ : Fin 8192).val = 2048 * (t.val / 4) + p.val := rfl
  refine (show (cfg4.win 2).cut (grid4.coords t) (outsAt4 V c t.val t.isLt) (ix2 p q)
    = outsAt4 V c t.val t.isLt (ix2 p q) from rfl).trans ?_
  rw [outsAt_eq V c t.val t.isLt p q _ hi, oblk_apply _ t p q _ hi, h3]
  exact BlockSum.psum_all 1024 _ 4 (by norm_num)

/-- Every row i of the output lies in the block written back at point 4 (i / 2048) + 3. -/
theorem cover (c : Dev nD) (i : ((cfg4.win 2).arr.view.loc (c.tc : Thread nD τ)).2.ty.Idx) :
    ∃ t : Fin cfg4.N, (cfg4.win 2).flush t = true ∧ i ∈ ((cfg4.win 2).blk t).view.set := by
  have h0 : (i 0 : Nat) < 8192 := (i 0).isLt
  have h1 : (i 1 : Nat) < 512 := (i 1).isLt
  have hN : cfg4.N = 16 := N_4
  obtain ⟨t, ht⟩ : ∃ t : Fin cfg4.N, t.val = 4 * ((i 0 : Nat) / 2048) + 3 :=
    ⟨⟨4 * ((i 0 : Nat) / 2048) + 3, by rw [hN]; omega⟩, rfl⟩
  refine ⟨t, (flush4_2 t).mpr (by omega), ?_⟩
  show i ∈ ((View.whole main_v22).slice (win4_2.rect t)).set
  rw [View.set_slice_whole, Rect.mem_set_unit]
  intro a
  match a with
  | ⟨0, _⟩ =>
    show win4_2.index t 0 * 2048 ≤ (i 0 : Nat) ∧ (i 0 : Nat) < win4_2.index t 0 * 2048 + 2048
    rw [(idx4_2 t).1]; omega
  | ⟨1, _⟩ =>
    show win4_2.index t 1 * 512 ≤ (i 1 : Nat) ∧ (i 1 : Nat) < win4_2.index t 1 * 512 + 512
    rw [(idx4_2 t).2]; omega

/-- What region 4 leaves in its output array: the incidence array times the scaled edge features. -/
theorem opre (c : Dev nD) :
    (dat4 (F := Ideal) V c).arrAt 2 cfg4.N
      = HgSpec.pdot 8192 4096 512 (V c (Pipeline.arrRef spec4 0)) (V c (Pipeline.arrRef spec4 1)) :=
  (dat4 V c).arrAt_eq_of_cover 2 (HgSpec.pdot 8192 4096 512 (Harr V c) (Tarr V c)) (flushed_eq V c) (cover c)

end Cert.KernelIdeal.Region4

end
-- ==== Proof.Thread.lean ====
/-
  The contents of the buffers the results depend on, at each boundary between a region and a stretch of host
  operations, from the launch memory to the return. A region leaves its output arrays at the sums of its entry
  arrays and every other buffer as entered; a stretch of host operations leaves each buffer it writes at its operation
  of the buffers it reads and every other buffer as it was. Walking the ten boundaries, each buffer is a function of
  the five argument arrays; at the last boundary the two results are the program's chain over the four sums.
-/
import proofs.«136602_j86895778333083_1_alg».proof.Proof.Gen.KernelIdeal.Frame
import proofs.«136602_j86895778333083_1_alg».proof.Proof.Chain
import proofs.«136602_j86895778333083_1_alg».proof.Proof.Region0
import proofs.«136602_j86895778333083_1_alg».proof.Proof.Region1
import proofs.«136602_j86895778333083_1_alg».proof.Proof.Region2
import proofs.«136602_j86895778333083_1_alg».proof.Proof.Region3
import proofs.«136602_j86895778333083_1_alg».proof.Proof.Region4
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Thread

open Cert.KernelIdeal Cert.KernelIdeal.Gen

variable (m : (ℓ : Loc nD τ sig) → Buf (Elt Ideal) ℓ) (ρ : Dev nD → PrngReg)

/-- A buffer no operation of a stretch writes is left as it was. -/
macro "keep_host " ops:ident : tactic => `(tactic| (
  refine StableHlo.after_of_forall_not_mem _ _ (List.forall_iff_forall_mem.mp ?_)
  simp only [$ops:ident, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The argument arrays, named -/

abbrev aH (c : Dev nD) : FVec Ideal S8192x4096 .f32 := m ((c.tc : Thread nD τ).loc main_arg1)
abbrev aX (c : Dev nD) : FVec Ideal S8192x512 .f32 := m ((c.tc : Thread nD τ).loc main_arg0)
abbrev aW (c : Dev nD) : FVec Ideal S512x512 .f32 := m ((c.tc : Thread nD τ).loc main_arg2)
abbrev aV (c : Dev nD) : FVec Ideal S512x1 .f32 := m ((c.tc : Thread nD τ).loc main_arg3)
abbrev aB (c : Dev nD) : FVec Ideal S512 .f32 := m ((c.tc : Thread nD τ).loc main_arg4)

/-! ## After region 0 -/

theorem W1_arg1 (c : Dev nD) : W1 m ρ c (Proc.devRef .tc main_arg1) = aH m c :=
  (W1_arr m ρ c 0).trans (((dat0 (V0 m ρ) c).arrAt_in 0 rfl _).trans (A_eq0 (V0 m ρ) c 0))
theorem W1_arg0 (c : Dev nD) : W1 m ρ c (Proc.devRef .tc main_arg0) = aX m c :=
  (W1_arr m ρ c 1).trans (((dat0 (V0 m ρ) c).arrAt_in 1 rfl _).trans (A_eq0 (V0 m ρ) c 1))
theorem W1_arg2 (c : Dev nD) : W1 m ρ c (Proc.devRef .tc main_arg2) = aW m c := W1_of_ne m ρ c main_arg2 (by decide)
theorem W1_arg3 (c : Dev nD) : W1 m ρ c (Proc.devRef .tc main_arg3) = aV m c := W1_of_ne m ρ c main_arg3 (by decide)
theorem W1_arg4 (c : Dev nD) : W1 m ρ c (Proc.devRef .tc main_arg4) = aB m c := W1_of_ne m ρ c main_arg4 (by decide)
/-- The edge embeddings. -/
theorem W1_v0_0 (c : Dev nD) : W1 m ρ c (Proc.devRef .tc main_v0_0) = HgSpec.tdot 4096 8192 512 (aH m c) (aX m c) :=
  (W1_arr m ρ c 2).trans (Region0.edge (V0 m ρ) c)
/-- The edge degrees, as a row. -/
theorem W1_v0_1 (c : Dev nD) : W1 m ρ c (Proc.devRef .tc main_v0_1) = HgSpec.colsum 8192 4096 (aH m c) :=
  (W1_arr m ρ c 3).trans (Region0.dege (V0 m ρ) c)

/-! ## After the first stretch: the edge weights -/

theorem W2_arg0 (c : Dev nD) : W2 m ρ c (Proc.devRef .tc main_arg0) = W1 m ρ c (Proc.devRef .tc main_arg0) := by keep_host hostOps1
theorem W2_arg1 (c : Dev nD) : W2 m ρ c (Proc.devRef .tc main_arg1) = W1 m ρ c (Proc.devRef .tc main_arg1) := by keep_host hostOps1
theorem W2_arg2 (c : Dev nD) : W2 m ρ c (Proc.devRef .tc main_arg2) = W1 m ρ c (Proc.devRef .tc main_arg2) := by keep_host hostOps1
theorem W2_arg4 (c : Dev nD) : W2 m ρ c (Proc.devRef .tc main_arg4) = W1 m ρ c (Proc.devRef .tc main_arg4) := by keep_host hostOps1
theorem W2_v1 (c : Dev nD) : W2 m ρ c (Proc.devRef .tc main_v1) = Chain.dege (aH m c) := by
  dsimp only [W2, hostOps1]
  after_results
  rw [W1_v0_1]
  rfl
theorem W2_v9 (c : Dev nD) : W2 m ρ c (Proc.devRef .tc main_v9) = Chain.wvec (aH m c) (aX m c) (aV m c) := by
  dsimp only [W2, hostOps1]
  after_results
  rw [W1_v0_0, W1_arg3]
  rfl
theorem W2_v10 (c : Dev nD) : W2 m ρ c (Proc.devRef .tc main_v10) = Chain.wrow (aH m c) (aX m c) (aV m c) := by
  dsimp only [W2, hostOps1]
  after_results
  rw [W1_v0_0, W1_arg3]
  rfl

/-! ## After region 1: the vertex degrees, as a column -/

theorem W3_arg1 (c : Dev nD) : W3 m ρ c (Proc.devRef .tc main_arg1) = W2 m ρ c (Proc.devRef .tc main_arg1) :=
  (W3_arr m ρ c 0).trans (((dat1 (V2 m ρ) c).arrAt_in 0 rfl _).trans (A_eq1 (V2 m ρ) c 0))
theorem W3_arg0 (c : Dev nD) : W3 m ρ c (Proc.devRef .tc main_arg0) = W2 m ρ c (Proc.devRef .tc main_arg0) := W3_of_ne m ρ c main_arg0 (by decide)
theorem W3_arg2 (c : Dev nD) : W3 m ρ c (Proc.devRef .tc main_arg2) = W2 m ρ c (Proc.devRef .tc main_arg2) := W3_of_ne m ρ c main_arg2 (by decide)
theorem W3_arg4 (c : Dev nD) : W3 m ρ c (Proc.devRef .tc main_arg4) = W2 m ρ c (Proc.devRef .tc main_arg4) := W3_of_ne m ρ c main_arg4 (by decide)
theorem W3_v1 (c : Dev nD) : W3 m ρ c (Proc.devRef .tc main_v1) = W2 m ρ c (Proc.devRef .tc main_v1) := W3_of_ne m ρ c main_v1 (by decide)
theorem W3_v9 (c : Dev nD) : W3 m ρ c (Proc.devRef .tc main_v9) = W2 m ρ c (Proc.devRef .tc main_v9) := W3_of_ne m ρ c main_v9 (by decide)
theorem W3_v11 (c : Dev nD) : W3 m ρ c (Proc.devRef .tc main_v11)
    = HgSpec.rowdot 8192 4096 (aH m c) (Chain.wrow (aH m c) (aX m c) (aV m c)) := by
  refine (W3_arr m ρ c 2).trans ((Region1.degv (V2 m ρ) c).trans ?_)
  show HgSpec.rowdot 8192 4096 (W2 m ρ c (Proc.devRef .tc main_arg1)) (W2 m ρ c (Proc.devRef .tc main_v10)) = _
  rw [W2_arg1, W1_arg1, W2_v10]

/-! ## After the second stretch -/

theorem W4_arg0 (c : Dev nD) : W4 m ρ c (Proc.devRef .tc main_arg0) = W3 m ρ c (Proc.devRef .tc main_arg0) := by keep_host hostOps2
theorem W4_arg1 (c : Dev nD) : W4 m ρ c (Proc.devRef .tc main_arg1) = W3 m ρ c (Proc.devRef .tc main_arg1) := by keep_host hostOps2
theorem W4_arg2 (c : Dev nD) : W4 m ρ c (Proc.devRef .tc main_arg2) = W3 m ρ c (Proc.devRef .tc main_arg2) := by keep_host hostOps2
theorem W4_arg4 (c : Dev nD) : W4 m ρ c (Proc.devRef .tc main_arg4) = W3 m ρ c (Proc.devRef .tc main_arg4) := by keep_host hostOps2
theorem W4_v1 (c : Dev nD) : W4 m ρ c (Proc.devRef .tc main_v1) = W3 m ρ c (Proc.devRef .tc main_v1) := by keep_host hostOps2
theorem W4_v9 (c : Dev nD) : W4 m ρ c (Proc.devRef .tc main_v9) = W3 m ρ c (Proc.devRef .tc main_v9) := by keep_host hostOps2
theorem W4_v12 (c : Dev nD) : W4 m ρ c (Proc.devRef .tc main_v12) = Chain.degv (aH m c) (aX m c) (aV m c) := by
  dsimp only [W4, hostOps2]
  after_results
  rw [W3_v11]
  rfl

/-! ## After region 2: the projected features -/

theorem W5_arg1 (c : Dev nD) : W5 m ρ c (Proc.devRef .tc main_arg1) = W4 m ρ c (Proc.devRef .tc main_arg1) := W5_of_ne m ρ c main_arg1 (by decide)
theorem W5_arg4 (c : Dev nD) : W5 m ρ c (Proc.devRef .tc main_arg4) = W4 m ρ c (Proc.devRef .tc main_arg4) := W5_of_ne m ρ c main_arg4 (by decide)
theorem W5_v1 (c : Dev nD) : W5 m ρ c (Proc.devRef .tc main_v1) = W4 m ρ c (Proc.devRef .tc main_v1) := W5_of_ne m ρ c main_v1 (by decide)
theorem W5_v9 (c : Dev nD) : W5 m ρ c (Proc.devRef .tc main_v9) = W4 m ρ c (Proc.devRef .tc main_v9) := W5_of_ne m ρ c main_v9 (by decide)
theorem W5_v12 (c : Dev nD) : W5 m ρ c (Proc.devRef .tc main_v12) = W4 m ρ c (Proc.devRef .tc main_v12) := W5_of_ne m ρ c main_v12 (by decide)
theorem W5_v13 (c : Dev nD) : W5 m ρ c (Proc.devRef .tc main_v13) = HgSpec.pdot 8192 512 512 (aX m c) (aW m c) := by
  refine (W5_arr m ρ c 2).trans ((Region2.xw (V4 m ρ) c).trans ?_)
  show HgSpec.pdot 8192 512 512 (W4 m ρ c (Proc.devRef .tc main_arg0)) (W4 m ρ c (Proc.devRef .tc main_arg2)) = _
  rw [W4_arg0, W3_arg0, W2_arg0, W1_arg0, W4_arg2, W3_arg2, W2_arg2, W1_arg2]

/-! ## After the third stretch: the projected features scaled by the vertex degrees -/

theorem W6_arg1 (c : Dev nD) : W6 m ρ c (Proc.devRef .tc main_arg1) = W5 m ρ c (Proc.devRef .tc main_arg1) := by keep_host hostOps3
theorem W6_arg4 (c : Dev nD) : W6 m ρ c (Proc.devRef .tc main_arg4) = W5 m ρ c (Proc.devRef .tc main_arg4) := by keep_host hostOps3
theorem W6_v1 (c : Dev nD) : W6 m ρ c (Proc.devRef .tc main_v1) = W5 m ρ c (Proc.devRef .tc main_v1) := by keep_host hostOps3
theorem W6_v9 (c : Dev nD) : W6 m ρ c (Proc.devRef .tc main_v9) = W5 m ρ c (Proc.devRef .tc main_v9) := by keep_host hostOps3
theorem W6_v12 (c : Dev nD) : W6 m ρ c (Proc.devRef .tc main_v12) = W5 m ρ c (Proc.devRef .tc main_v12) := by keep_host hostOps3
theorem W5_v12' (c : Dev nD) : W5 m ρ c (Proc.devRef .tc main_v12) = Chain.degv (aH m c) (aX m c) (aV m c) :=
  (W5_v12 m ρ c).trans (W4_v12 m ρ c)
theorem W6_v16 (c : Dev nD) : W6 m ρ c (Proc.devRef .tc main_v16) = Chain.yarr (aH m c) (aX m c) (aW m c) (aV m c) := by
  dsimp only [W6, hostOps3]
  after_results
  rw [W5_v12', W5_v13]
  rfl

/-! ## The incidence array, the edge weights and the degrees, carried to where they are read -/

theorem W6_H (c : Dev nD) : W6 m ρ c (Proc.devRef .tc main_arg1) = aH m c :=
  (W6_arg1 m ρ c).trans ((W5_arg1 m ρ c).trans ((W4_arg1 m ρ c).trans ((W3_arg1 m ρ c).trans ((W2_arg1 m ρ c).trans (W1_arg1 m ρ c)))))
theorem W6_v12' (c : Dev nD) : W6 m ρ c (Proc.devRef .tc main_v12) = Chain.degv (aH m c) (aX m c) (aV m c) :=
  (W6_v12 m ρ c).trans (W5_v12' m ρ c)
theorem W6_v9' (c : Dev nD) : W6 m ρ c (Proc.devRef .tc main_v9) = Chain.wvec (aH m c) (aX m c) (aV m c) :=
  (W6_v9 m ρ c).trans ((W5_v9 m ρ c).trans ((W4_v9 m ρ c).trans ((W3_v9 m ρ c).trans (W2_v9 m ρ c))))
theorem W6_v1' (c : Dev nD) : W6 m ρ c (Proc.devRef .tc main_v1) = Chain.dege (aH m c) :=
  (W6_v1 m ρ c).trans ((W5_v1 m ρ c).trans ((W4_v1 m ρ c).trans ((W3_v1 m ρ c).trans (W2_v1 m ρ c))))
theorem W6_B (c : Dev nD) : W6 m ρ c (Proc.devRef .tc main_arg4) = aB m c :=
  (W6_arg4 m ρ c).trans ((W5_arg4 m ρ c).trans ((W4_arg4 m ρ c).trans ((W3_arg4 m ρ c).trans ((W2_arg4 m ρ c).trans (W1_arg4 m ρ c)))))

/-! ## After region 3 -/

theorem W7_arg1 (c : Dev nD) : W7 m ρ c (Proc.devRef .tc main_arg1) = W6 m ρ c (Proc.devRef .tc main_arg1) :=
  (W7_arr m ρ c 0).trans (((dat3 (V6 m ρ) c).arrAt_in 0 rfl _).trans (A_eq3 (V6 m ρ) c 0))
theorem W7_arg4 (c : Dev nD) : W7 m ρ c (Proc.devRef .tc main_arg4) = W6 m ρ c (Proc.devRef .tc main_arg4) := W7_of_ne m ρ c main_arg4 (by decide)
theorem W7_v1 (c : Dev nD) : W7 m ρ c (Proc.devRef .tc main_v1) = W6 m ρ c (Proc.devRef .tc main_v1) := W7_of_ne m ρ c main_v1 (by decide)
theorem W7_v9 (c : Dev nD) : W7 m ρ c (Proc.devRef .tc main_v9) = W6 m ρ c (Proc.devRef .tc main_v9) := W7_of_ne m ρ c main_v9 (by decide)
theorem W7_v12 (c : Dev nD) : W7 m ρ c (Proc.devRef .tc main_v12) = W6 m ρ c (Proc.devRef .tc main_v12) := W7_of_ne m ρ c main_v12 (by decide)
theorem W7_v17 (c : Dev nD) : W7 m ρ c (Proc.devRef .tc main_v17)
    = HgSpec.tdot 4096 8192 512 (aH m c) (Chain.yarr (aH m c) (aX m c) (aW m c) (aV m c)) := by
  refine (W7_arr m ρ c 2).trans ((Region3.tpre (V6 m ρ) c).trans ?_)
  show HgSpec.tdot 4096 8192 512 (W6 m ρ c (Proc.devRef .tc main_arg1)) (W6 m ρ c (Proc.devRef .tc main_v16)) = _
  rw [W6_H, W6_v16]

/-! ## After the fourth stretch: the edge features scaled by weight times degree -/

theorem W8_arg1 (c : Dev nD) : W8 m ρ c (Proc.devRef .tc main_arg1) = W7 m ρ c (Proc.devRef .tc main_arg1) := by keep_host hostOps4
theorem W8_arg4 (c : Dev nD) : W8 m ρ c (Proc.devRef .tc main_arg4) = W7 m ρ c (Proc.devRef .tc main_arg4) := by keep_host hostOps4
theorem W8_v9 (c : Dev nD) : W8 m ρ c (Proc.devRef .tc main_v9) = W7 m ρ c (Proc.devRef .tc main_v9) := by keep_host hostOps4
theorem W8_v12 (c : Dev nD) : W8 m ρ c (Proc.devRef .tc main_v12) = W7 m ρ c (Proc.devRef .tc main_v12) := by keep_host hostOps4
theorem W8_v21 (c : Dev nD) : W8 m ρ c (Proc.devRef .tc main_v21) = Chain.tarr (aH m c) (aX m c) (aW m c) (aV m c) := by
  dsimp only [W8, hostOps4]
  after_results
  rw [W7_v9, W6_v9', W7_v1, W6_v1', W7_v17]
  rfl

/-! ## After region 4 -/

theorem W9_arg4 (c : Dev nD) : W9 m ρ c (Proc.devRef .tc main_arg4) = W8 m ρ c (Proc.devRef .tc main_arg4) := W9_of_ne m ρ c main_arg4 (by decide)
theorem W9_v9 (c : Dev nD) : W9 m ρ c (Proc.devRef .tc main_v9) = W8 m ρ c (Proc.devRef .tc main_v9) := W9_of_ne m ρ c main_v9 (by decide)
theorem W9_v12 (c : Dev nD) : W9 m ρ c (Proc.devRef .tc main_v12) = W8 m ρ c (Proc.devRef .tc main_v12) := W9_of_ne m ρ c main_v12 (by decide)
theorem W9_v22 (c : Dev nD) : W9 m ρ c (Proc.devRef .tc main_v22)
    = HgSpec.pdot 8192 4096 512 (aH m c) (Chain.tarr (aH m c) (aX m c) (aW m c) (aV m c)) := by
  refine (W9_arr m ρ c 2).trans ((Region4.opre (V8 m ρ) c).trans ?_)
  show HgSpec.pdot 8192 4096 512 (W8 m ρ c (Proc.devRef .tc main_arg1)) (W8 m ρ c (Proc.devRef .tc main_v21)) = _
  rw [W8_arg1, W7_arg1, W6_H, W8_v21]

/-! ## At the return -/

/-- The first result: the program's chain over the four sums. -/
theorem out_eq (c : Dev nD) : W10 m ρ c (Proc.devRef .tc main_v28) = Chain.out (aH m c) (aX m c) (aW m c) (aV m c) (aB m c) := by
  dsimp only [W10, hostOps5]
  after_results
  rw [W9_v12, W8_v12, W7_v12, W6_v12', W9_v22, W9_arg4, W8_arg4, W7_arg4, W6_B]
  rfl

/-- The second result: the edge weights. -/
theorem w_eq (c : Dev nD) : W10 m ρ c (Proc.devRef .tc main_v9) = Chain.wvec (aH m c) (aX m c) (aV m c) := by
  refine (?_ : W10 m ρ c (Proc.devRef .tc main_v9) = W9 m ρ c (Proc.devRef .tc main_v9)).trans
    ((W9_v9 m ρ c).trans ((W8_v9 m ρ c).trans ((W7_v9 m ρ c).trans (W6_v9' m ρ c))))
  keep_host hostOps5

end Cert.KernelIdeal.Thread

end
-- ==== Proof.RefSide.lean ====
/-
  The reference's six contractions, each as the sum it is: the host's product with the transposed incidence array is
  the transposed product; its products with the incidence array, the weights and the column of edge weights are the
  plain ones; its sum of the incidence array along the vertices is the column sums.
-/
import proofs.«136602_j86895778333083_1_alg».proof.Proof.Gen.ReferenceIdeal.Read
import proofs.«136602_j86895778333083_1_alg».proof.Proof.Spec
import proofs.«136602_j86895778333083_1_alg».proof.Proof.LibPlainDot

noncomputable section

open scoped BigOperators

namespace Cert.ReferenceIdeal.RefSide

open Cert.ReferenceIdeal Cert.ReferenceIdeal.Gen Idealize.ShloMosaic Idealize.ShloMosaic.ValueIdx

/-- The host's product of the transposed incidence array with a [8192, 512] array is the transposed product. -/
theorem tdot_eq (H : FVec Ideal S8192x4096 .f32) (y : FVec Ideal S8192x512 .f32)
    (ht : S8192x4096.Transposes [1, 0] S4096x8192) :
    Host.dotGeneral (F := Ideal) dot_S4096x8192_S8192x512_S4096x512_1_0_0_1_n_n none
        (transpose S4096x8192 [1, 0] H ht) y
      = HgSpec.tdot 4096 8192 512 H y := by
  funext j
  -- the product at (e, f) is the sum over the vertex k of the transposed array at (e, k) times y at (k, f) …
  refine (PlainDot.dotGeneral_apply 4096 8192 512 .single (transpose S4096x8192 [1, 0] H ht) y j).trans
    (Finset.sum_congr rfl fun k _ => ?_)
  -- … and the transposed array at (e, k) is the incidence array at (k, e): the generated reading of the transpose
  refine congrArg (· * _) ?_
  refine (Read.val_main_v0_apply (F := Ideal) H (ix2 (HgSpec.r0 j) k)).trans ?_
  exact congrArg H (funext fun a => Fin.ext (by match a with | ⟨0, _⟩ => rfl | ⟨1, _⟩ => rfl))

/-- The host's product of the incidence array with the column of edge weights is each row against those weights laid
    out as a row. -/
theorem rowdot_eq (H : FVec Ideal S8192x4096 .f32) (s : FVec Ideal S4096x1 .f32) (r : HgSpec.Arr2 1 4096)
    (hr : ∀ k : Fin 4096, r (ix2 (0 : Fin 1) k) = s (ix2 k (0 : Fin 1))) :
    Host.dotGeneral (F := Ideal) dot_S8192x4096_S4096x1_S8192x1_1_0_0_1_n_n none H s = HgSpec.rowdot 8192 4096 H r := by
  funext j
  refine (PlainDot.dotGeneral_apply 8192 4096 1 .single H s j).trans (Finset.sum_congr rfl fun k _ => ?_)
  -- the result has one column, so its column coordinate is 0, and the column of weights at (k, 0) is the row at (0, k)
  have hj : (⟨(j 1).val, (j 1).isLt⟩ : Fin 1) = 0 := Subsingleton.elim _ _
  exact congrArg (_ * ·) ((congrArg (fun c => s (ix2 k c)) hj).trans (hr k).symm)

/-- The host's sum of the incidence array along the vertices, from zero, is the column sums. -/
theorem colsum_eq (H : FVec Ideal S8192x4096 .f32) (hr : S8192x4096.ReducesTo [0] S4096) (hs : 0 < S_.numel) (e : Fin 4096) :
    Host.reduceAdd (F := Ideal) H (constant S_ .f32 0x00000000#32) hr hs (ix1 e)
      = HgSpec.colsum 8192 4096 H (ix2 (0 : Fin 1) e) := by
  -- the generated reading of this sum at an index: over the extended reals it is the initial value plus the sum over
  -- the vertices (the two shape facts are propositions, so any proofs of them give the same array)
  refine (Read.val_main_v12_apply H (ix1 e)).trans ?_
  -- the initial value is the zero word, which is 0
  rw [Read.val_main_cst_1_apply, show FloatOps.ofBits (F := Ideal) .f32 0x00000000#32 = 0 from Ideal.ofBits_zero_f32, zero_add]
  -- and the operand's index at the vertex k is (k, e)
  refine Finset.sum_congr rfl fun k _ => ?_
  exact congrArg H (funext fun a => Fin.ext (by match a with | ⟨0, _⟩ => rfl | ⟨1, _⟩ => rfl))

/-- The host's product of the features with the weights. -/
theorem xw_eq (x : FVec Ideal S8192x512 .f32) (W : FVec Ideal S512x512 .f32) :
    Host.dotGeneral (F := Ideal) dot_S8192x512_S512x512_S8192x512_1_0_0_1_n_n none x W = HgSpec.pdot 8192 512 512 x W := by
  funext j
  exact PlainDot.dotGeneral_apply 8192 512 512 .single x W j

/-- The host's product of the incidence array with a [4096, 512] array. -/
theorem ht_eq (H : FVec Ideal S8192x4096 .f32) (t : FVec Ideal S4096x512 .f32) :
    Host.dotGeneral (F := Ideal) dot_S8192x4096_S4096x512_S8192x512_1_0_0_1_n_n none H t = HgSpec.pdot 8192 4096 512 H t := by
  funext j
  exact PlainDot.dotGeneral_apply 8192 4096 512 .single H t j

end Cert.ReferenceIdeal.RefSide

end
-- ==== Proof.Bridge.lean ====
/-
  The reference's two results are the kernel program's chain over the four sums: each of its contractions is one of
  the sums (the column product against the weights laid out as a row, the sum along the vertices laid out as a
  vector), and every other operation is the same operation applied in the same order.
-/
import proofs.«136602_j86895778333083_1_alg».proof.Proof.Gen.ReferenceIdeal.Read
import proofs.«136602_j86895778333083_1_alg».proof.Proof.RefSide
import proofs.«136602_j86895778333083_1_alg».proof.Proof.Chain
import Idealize.ShloMosaic.Lib.Pipeline.Value

noncomputable section

namespace Cert.Bridge

open Idealize.ShloMosaic Idealize.ShloMosaic.ValueIdx

/-- A column of weights transposed to a row reads, at (0, k), the column at (k, 0): so the reference's product of the
    incidence array with the column is each row against the row. -/
theorem degv_col (H : FVec Ideal Cert.ReferenceIdeal.S8192x4096 .f32) (s : FVec Ideal Cert.ReferenceIdeal.S4096x1 .f32)
    (ht : Cert.KernelIdeal.S4096x1.Transposes [1, 0] Cert.KernelIdeal.S1x4096) :
    Host.dotGeneral (F := Ideal) Cert.ReferenceIdeal.dot_S8192x4096_S4096x1_S8192x1_1_0_0_1_n_n none H s
      = HgSpec.rowdot 8192 4096 H (transpose Cert.KernelIdeal.S1x4096 [1, 0] s ht) :=
  Cert.ReferenceIdeal.RefSide.rowdot_eq H s _ fun k =>
    transpose_apply [1, 0] s ht (ix2 (0 : Fin 1) k) (ix2 k (0 : Fin 1)) fun b => match b with
      | ⟨0, _⟩ => rfl
      | ⟨1, _⟩ => rfl

/-- The row of column sums cast to a vector reads, at e, the row at (0, e): so the reference's sum along the vertices
    is that vector. -/
theorem dege_vec (H : FVec Ideal Cert.ReferenceIdeal.S8192x4096 .f32)
    (hr : Cert.ReferenceIdeal.S8192x4096.ReducesTo [0] Cert.ReferenceIdeal.S4096) (hs : 0 < Cert.ReferenceIdeal.S_.numel)
    (hc : Cert.KernelIdeal.S1x4096.ShapeCasts Cert.KernelIdeal.S4096) :
    Host.reduceAdd (F := Ideal) H (constant Cert.ReferenceIdeal.S_ .f32 0x00000000#32) hr hs
      = shapeCast Cert.KernelIdeal.S4096 (HgSpec.colsum 8192 4096 H : FVec Ideal Cert.KernelIdeal.S1x4096 .f32) hc := by
  funext i
  obtain ⟨e, rfl⟩ : ∃ e : Fin 4096, i = ix1 e := ⟨i 0, eq_ix1 i⟩
  rw [Cert.ReferenceIdeal.RefSide.colsum_eq]
  refine (shapeCast_apply _ hc (ix1 e) (ix2 (0 : Fin 1) e) ?_).symm
  rw [Shape.rowMajor_val_two, Shape.rowMajor_val_one]
  show (0 : ℕ) * 4096 + e.val = e.val
  omega

variable (x0 : FVec Ideal Cert.ReferenceIdeal.S8192x512 .f32) (x1 : FVec Ideal Cert.ReferenceIdeal.S8192x4096 .f32)
  (x2 : FVec Ideal Cert.ReferenceIdeal.S512x512 .f32) (x3 : FVec Ideal Cert.ReferenceIdeal.S512x1 .f32)
  (x4 : FVec Ideal Cert.ReferenceIdeal.S512 .f32)

/-- The reference's second result is the edge weights. -/
theorem w_bridge : Cert.ReferenceIdeal.Read.val_main_v9 (F := Ideal) x0 x1 x3 = Cert.KernelIdeal.Chain.wvec x1 x0 x3 := by
  simp only [Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_v7, Cert.ReferenceIdeal.Read.val_main_v8, Cert.ReferenceIdeal.Read.val_main_v9, Cert.ReferenceIdeal.Read.val_main_cst, Cert.ReferenceIdeal.Read.val_main_cst_0]
  rw [Cert.ReferenceIdeal.RefSide.tdot_eq x1 x0]
  rfl

/-- The reference's first result is the chain's output. -/
theorem out_bridge :
    Cert.ReferenceIdeal.Read.val_main_v29 (F := Ideal) x0 x1 x2 x3 x4 = Cert.KernelIdeal.Chain.out x1 x0 x2 x3 x4 := by
  simp only [Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_v7, Cert.ReferenceIdeal.Read.val_main_v8, Cert.ReferenceIdeal.Read.val_main_v9, Cert.ReferenceIdeal.Read.val_main_v10, Cert.ReferenceIdeal.Read.val_main_v11, Cert.ReferenceIdeal.Read.val_main_v12, Cert.ReferenceIdeal.Read.val_main_v13, Cert.ReferenceIdeal.Read.val_main_v14, Cert.ReferenceIdeal.Read.val_main_v15, Cert.ReferenceIdeal.Read.val_main_v16, Cert.ReferenceIdeal.Read.val_main_v17, Cert.ReferenceIdeal.Read.val_main_v18, Cert.ReferenceIdeal.Read.val_main_v19, Cert.ReferenceIdeal.Read.val_main_v20, Cert.ReferenceIdeal.Read.val_main_v21, Cert.ReferenceIdeal.Read.val_main_v22, Cert.ReferenceIdeal.Read.val_main_v23, Cert.ReferenceIdeal.Read.val_main_v24, Cert.ReferenceIdeal.Read.val_main_v25, Cert.ReferenceIdeal.Read.val_main_v26, Cert.ReferenceIdeal.Read.val_main_v27, Cert.ReferenceIdeal.Read.val_main_v28, Cert.ReferenceIdeal.Read.val_main_v29, Cert.ReferenceIdeal.Read.val_main_cst, Cert.ReferenceIdeal.Read.val_main_cst_0, Cert.ReferenceIdeal.Read.val_main_cst_1]
  rw [Cert.ReferenceIdeal.RefSide.tdot_eq x1 x0]
  rw [degv_col x1 _ Cert.KernelIdeal.Gen.transposes_S4096x1_S1x4096_1_0]
  rw [dege_vec x1 _ _ Cert.KernelIdeal.Gen.shapeCasts_S1x4096_S4096]
  rw [Cert.ReferenceIdeal.RefSide.xw_eq x0 x2]
  rw [Cert.ReferenceIdeal.RefSide.tdot_eq x1]
  rw [Cert.ReferenceIdeal.RefSide.ht_eq x1]
  rfl

end Cert.Bridge

end
-- ==== Proof.lean ====
/-
  The certificate of the hypergraph convolution: five kernel regions among stretches of host operations against the
  plain reference, over the extended reals.

  Both programs compute, from the incidence array H, the features x, the weights W, the column V and the bias:
    w = sigmoid((Hᵀx) V),   d = H w,   δ = the column sums of H,   out = d ⊙ (H ((w ⊙ δ) ⊙ (Hᵀ (d ⊙ (x W))))) + bias,
  and return (out, w). The kernel program takes Hᵀx, δ, Hw, Hᵀy and Ht block by block — four blocks of the contracted
  axis added into an accumulator that is reset to zero at the first — where the reference takes each as one sum; every
  other operation is the same operation in the same order on both sides. On the extended reals addition is commutative
  and associative, so four block sums added from zero are the whole sum, and no finiteness of the inputs is used.

  The three frames are the generated ones (the reference's is its generated run with the results dropped); nothing was
  rewritten by the idealization, so the preservation claim is trivial. For the value claim the kernel program's run is
  read at its last segment boundary (KernelRun), whose contents are walked back to the launch memory through the five
  regions' values (Region0 … Region4, Thread) to the chain over the four sums (Chain); the reference's run is its
  generated one, whose term is the same chain (RefSide, Bridge).
-/
import proofs.«136602_j86895778333083_1_alg».proof.Defs
import proofs.«136602_j86895778333083_1_alg».proof.Proof.Gen.Kernel
import proofs.«136602_j86895778333083_1_alg».proof.Proof.Gen.Kernel.Frame
import proofs.«136602_j86895778333083_1_alg».proof.Proof.Gen.KernelIdeal
import proofs.«136602_j86895778333083_1_alg».proof.Proof.Gen.KernelIdeal.Frame
import proofs.«136602_j86895778333083_1_alg».proof.Proof.Gen.ReferenceIdeal
import proofs.«136602_j86895778333083_1_alg».proof.Proof.Gen.ReferenceIdeal.Run
import proofs.«136602_j86895778333083_1_alg».proof.Proof.Gen.ReferenceIdeal.Read
import proofs.«136602_j86895778333083_1_alg».proof.Proof.Gen.Pre_finite_inputs
import proofs.«136602_j86895778333083_1_alg».proof.Proof.KernelRun
import proofs.«136602_j86895778333083_1_alg».proof.Proof.Thread
import proofs.«136602_j86895778333083_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the chain over the four sums of the arguments they agree on. -/
theorem algebraic : Cert.algebraic_KernelIdeal_ReferenceIdeal := by
  intro m ρ m' ρ' _ hagree
  refine ⟨fun c => Cert.KernelIdeal.Chain.out (Cert.KernelIdeal.Thread.aH m c) (Cert.KernelIdeal.Thread.aX m c)
      (Cert.KernelIdeal.Thread.aW m c) (Cert.KernelIdeal.Thread.aV m c) (Cert.KernelIdeal.Thread.aB m c),
    fun c => Cert.KernelIdeal.Chain.wvec (Cert.KernelIdeal.Thread.aH m c) (Cert.KernelIdeal.Thread.aX m c)
      (Cert.KernelIdeal.Thread.aV m c), ?_, ?_⟩
  · exact (θ_run Cert.KernelIdeal.defs _ _).mono
      (fun _ h c => ⟨(h c).1.trans (Cert.KernelIdeal.Thread.out_eq m ρ c),
        (h c).2.1.trans (Cert.KernelIdeal.Thread.w_eq m ρ c), (h c).2.2⟩)
      (Cert.KernelIdeal.ValueRun.run_results (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v29_eq, (hagree c).1, (hagree c).2.1, (hagree c).2.2.1, (hagree c).2.2.2.1,
        (hagree c).2.2.2.2]
      exact Cert.Bridge.out_bridge _ _ _ _ _
    · rw [Cert.ReferenceIdeal.Read.val_main_v9_eq, (hagree c).1, (hagree c).2.1, (hagree c).2.2.2.1]
      exact Cert.Bridge.w_bridge _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
